-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg5 : FVec F S256 .f32) (main_arg6 : FVec F S256x64 .f32) (main_arg7 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S50000x512 .f32) (main_arg1 : IVec S2x800000 32) (main_arg2 : FVec F S512x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S5000x512 : Shape := ⟨2, ![5000, 512]⟩
abbrev S5000x256 : Shape := ⟨2, ![5000, 256]⟩
abbrev S1 : Shape := ⟨1, ![1]⟩
abbrev S1x1 : Shape := ⟨2, ![1, 1]⟩
abbrev S800000x256 : Shape := ⟨2, ![800000, 256]⟩
abbrev S1x256 : Shape := ⟨2, ![1, 256]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S5000 : Shape := ⟨1, ![5000]⟩

abbrev nBuf : Space → Nat
  | .hbm => 144
  | .vmem => 42
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x256, .f32⟩
  | 5 => ⟨S256, .f32⟩
  | 6 => ⟨S256x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S50000, .f32⟩
  | 23 => ⟨S50000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S800000x1, .f32⟩
  | 44 => ⟨S50000x512, .bf16⟩
  | 45 => ⟨S512x256, .bf16⟩
  | 46 => ⟨S50000x256, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S1, .i32⟩
  | 56 => ⟨S_, .i32⟩
  | 57 => ⟨S800000x1, .i32⟩
  | 58 => ⟨S800000x1, .i1⟩
  | 59 => ⟨S1x1, .i32⟩
  | 60 => ⟨S800000x1, .i32⟩
  | 61 => ⟨S800000x1, .i1⟩
  | 62 => ⟨S800000x1, .i1⟩
  | 63 => ⟨S_, .i1⟩
  | 64 => ⟨S800000, .i1⟩
  | 65 => ⟨S800000x256, .f32⟩
  | 66 => ⟨S800000x256, .i1⟩
  | 67 => ⟨S_, .f32⟩
  | 68 => ⟨S800000x256, .f32⟩
  | 69 => ⟨S800000x256, .f32⟩
  | 70 => ⟨S800000x256, .f32⟩
  | 71 => ⟨S800000x256, .f32⟩
  | 72 => ⟨S_, .f32⟩
  | 73 => ⟨S50000x256, .f32⟩
  | 74 => ⟨S800000x1, .i32⟩
  | 75 => ⟨S50000x256, .f32⟩
  | 76 => ⟨S1x256, .f32⟩
  | 77 => ⟨S50000x256, .bf16⟩
  | 78 => ⟨S256x256, .bf16⟩
  | 79 => ⟨S50000x256, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S1, .i32⟩
  | 89 => ⟨S_, .i32⟩
  | 90 => ⟨S800000x1, .i32⟩
  | 91 => ⟨S800000x1, .i1⟩
  | 92 => ⟨S1x1, .i32⟩
  | 93 => ⟨S800000x1, .i32⟩
  | 94 => ⟨S800000x1, .i1⟩
  | 95 => ⟨S800000x1, .i1⟩
  | 96 => ⟨S_, .i1⟩
  | 97 => ⟨S800000, .i1⟩
  | 98 => ⟨S800000x256, .f32⟩
  | 99 => ⟨S800000x256, .i1⟩
  | 100 => ⟨S_, .f32⟩
  | 101 => ⟨S800000x256, .f32⟩
  | 102 => ⟨S800000x256, .f32⟩
  | 103 => ⟨S800000x256, .f32⟩
  | 104 => ⟨S800000x256, .f32⟩
  | 105 => ⟨S_, .f32⟩
  | 106 => ⟨S50000x256, .f32⟩
  | 107 => ⟨S800000x1, .i32⟩
  | 108 => ⟨S50000x256, .f32⟩
  | 109 => ⟨S1x256, .f32⟩
  | 110 => ⟨S50000x256, .bf16⟩
  | 111 => ⟨S256x64, .bf16⟩
  | 112 => ⟨S50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S1, .i32⟩
  | 122 => ⟨S_, .i32⟩
  | 123 => ⟨S800000x1, .i32⟩
  | 124 => ⟨S800000x1, .i1⟩
  | 125 => ⟨S1x1, .i32⟩
  | 126 => ⟨S800000x1, .i32⟩
  | 127 => ⟨S800000x1, .i1⟩
  | _ => ⟨S50000x512, .f32⟩

abbrev hbmTy0_1 (i : Nat) : BufTy := match i % 128 with
  | 0 => ⟨S800000x1, .i1⟩
  | 1 => ⟨S_, .i1⟩
  | 2 => ⟨S800000, .i1⟩
  | 3 => ⟨S800000x64, .f32⟩
  | 4 => ⟨S800000x64, .i1⟩
  | 5 => ⟨S_, .f32⟩
  | 6 => ⟨S800000x64, .f32⟩
  | 7 => ⟨S800000x64, .f32⟩
  | 8 => ⟨S800000x64, .f32⟩
  | 9 => ⟨S800000x64, .f32⟩
  | 10 => ⟨S_, .f32⟩
  | 11 => ⟨S50000x64, .f32⟩
  | 12 => ⟨S800000x1, .i32⟩
  | 13 => ⟨S50000x64, .f32⟩
  | 14 => ⟨S1x64, .f32⟩
  | 15 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .bf16⟩
  | .local _ .vmem, ⟨1, _⟩ => ⟨S5000x512, .bf16⟩
  | .local _ .vmem, ⟨2, _⟩ => ⟨S512x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S5000x256, .bf16⟩
  | .local _ .vmem, ⟨13, _⟩ => ⟨S5000x256, .bf16⟩
  | .local _ .vmem, ⟨14, _⟩ => ⟨S5000x256, .bf16⟩
  | .local _ .vmem, ⟨15, _⟩ => ⟨S5000x256, .bf16⟩
  | .local _ .vmem, ⟨16, _⟩ => ⟨S256x256, .bf16⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x1, .f32⟩
  | .local _ .vmem, ⟨24, _⟩ => ⟨S5000x1, .f32⟩
  | .local _ .vmem, ⟨25, _⟩ => ⟨S1x256, .f32⟩
  | .local _ .vmem, ⟨26, _⟩ => ⟨S5000x256, .bf16⟩
  | .local _ .vmem, ⟨27, _⟩ => ⟨S5000x256, .bf16⟩
  | .local _ .vmem, ⟨28, _⟩ => ⟨S5000x256, .bf16⟩
  | .local _ .vmem, ⟨29, _⟩ => ⟨S5000x256, .bf16⟩
  | .local _ .vmem, ⟨30, _⟩ => ⟨S256x64, .bf16⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_c_1 : Ref sig .tc := ⟨.hbm, 88, rfl⟩
abbrev main_call1_c_2 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_3 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_call1_cst : Ref sig .tc := ⟨.hbm, 100, rfl⟩
abbrev main_call1_v15 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_cst_6 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_cst : Ref sig .tc := ⟨.hbm, 133, rfl⟩
abbrev main_call2_v15 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_cst_7 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x256_S5000x256_0_0 : ∀ a, (![0, 0] : Fin 2 → Nat) a + S5000x256.size a ≤ S5000x256.size a
  h_S5000x256 : 0 < S5000x256.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  packedbf16_S5000x256_S5000x256_0_0 : (Rect.unit (s := S5000x256) ![0, 0] S5000x256.size inb_S5000x256_S5000x256_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x512_S512x256_S5000x256_1_0_0_1_n_n_wf : DotDims.WF S5000x512 S512x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .bf16 = 32 ∨ (Rect.block (s := S50000x256) S5000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S50000x256.size a
  hwx3_1 : ∀ i : grid3.Coords, EltTy.bits .f32 = 32 ∨ (Rect.block (s := S50000x256) S5000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x256.size a ≤ S50000x256.size a
  hwx3_4 : ∀ i : grid3.Coords, EltTy.bits .bf16 = 32 ∨ (Rect.block (s := S50000x256) S5000x256.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .bf16 = 32 ∨ (Rect.block (s := S50000x256) S5000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .bf16 = 32 ∨ (Rect.block (s := S256x64) S256x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v29) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S5000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v58) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v59) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 209
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x256, .f32⟩
  | 5 => ⟨S256, .f32⟩
  | 6 => ⟨S256x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x256, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x256, .f32⟩
  | 51 => ⟨S800000x1, .f32⟩
  | 52 => ⟨S800000x256, .f32⟩
  | 53 => ⟨S800000x256, .f32⟩
  | 54 => ⟨S_, .f32⟩
  | 55 => ⟨S50000x256, .f32⟩
  | 56 => ⟨S800000x1, .i32⟩
  | 57 => ⟨S50000x256, .f32⟩
  | 58 => ⟨S50000, .f32⟩
  | 59 => ⟨S50000x1, .f32⟩
  | 60 => ⟨S50000x256, .f32⟩
  | 61 => ⟨S50000x256, .f32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x256, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x256, .f32⟩
  | 108 => ⟨S800000x1, .f32⟩
  | 109 => ⟨S800000x256, .f32⟩
  | 110 => ⟨S800000x256, .f32⟩
  | 111 => ⟨S_, .f32⟩
  | 112 => ⟨S50000x256, .f32⟩
  | 113 => ⟨S800000x1, .i32⟩
  | 114 => ⟨S50000x256, .f32⟩
  | 115 => ⟨S50000, .f32⟩
  | 116 => ⟨S50000x1, .f32⟩
  | 117 => ⟨S50000x256, .f32⟩
  | 118 => ⟨S50000x256, .f32⟩
  | 119 => ⟨S50000x256, .f32⟩
  | 120 => ⟨S1x256, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S50000x64, .f32⟩
  | 127 => ⟨S_, .f32⟩
  | _ => ⟨S50000x512, .f32⟩

abbrev hbmTy0_1 (i : Nat) : BufTy := match i % 128 with
  | 0 => ⟨S800000, .f32⟩
  | 1 => ⟨S_, .f32⟩
  | 2 => ⟨S50000, .f32⟩
  | 3 => ⟨S800000x1, .i32⟩
  | 4 => ⟨S50000, .f32⟩
  | 5 => ⟨S_, .f32⟩
  | 6 => ⟨S50000, .f32⟩
  | 7 => ⟨S50000, .f32⟩
  | 8 => ⟨S50000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000, .f32⟩
  | 27 => ⟨S800000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S800000x1, .f32⟩
  | 38 => ⟨S800000x64, .f32⟩
  | 39 => ⟨S800000x64, .f32⟩
  | 40 => ⟨S_, .f32⟩
  | 41 => ⟨S50000x64, .f32⟩
  | 42 => ⟨S800000x1, .i32⟩
  | 43 => ⟨S50000x64, .f32⟩
  | 44 => ⟨S50000, .f32⟩
  | 45 => ⟨S50000x1, .f32⟩
  | 46 => ⟨S50000x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x64, .f32⟩
  | 59 => ⟨S50000x64, .f32⟩
  | 60 => ⟨S50000x64, .f32⟩
  | 61 => ⟨S_, .f32⟩
  | 62 => ⟨S50000, .f32⟩
  | 63 => ⟨S50000x1, .f32⟩
  | 64 => ⟨S50000x64, .f32⟩
  | 65 => ⟨S50000x64, .f32⟩
  | 66 => ⟨S_, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x64, .f32⟩
  | 73 => ⟨S50000x64, .f32⟩
  | 74 => ⟨S50000x64, .f32⟩
  | 75 => ⟨S_, .f32⟩
  | 76 => ⟨S50000, .f32⟩
  | 77 => ⟨S50000x1, .f32⟩
  | 78 => ⟨S50000x1, .f32⟩
  | 79 => ⟨S50000x64, .f32⟩
  | 80 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_25 : Ref sig .tc := ⟨.hbm, 156, rfl⟩
abbrev main_v117 : Ref sig .tc := ⟨.hbm, 157, rfl⟩
abbrev main_v118 : Ref sig .tc := ⟨.hbm, 158, rfl⟩
abbrev main_c_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_28 : Ref sig .tc := ⟨.hbm, 180, rfl⟩
abbrev main_v138 : Ref sig .tc := ⟨.hbm, 181, rfl⟩
abbrev main_cst_29 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_30 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_call2_cst : Ref sig .tc := ⟨.hbm, 194, rfl⟩
abbrev main_call2_v0 : Ref sig .tc := ⟨.hbm, 195, rfl⟩
abbrev main_call2_cst_0 : Ref sig .tc := ⟨.hbm, 196, rfl⟩
abbrev main_call2_v1 : Ref sig .tc := ⟨.hbm, 197, rfl⟩
abbrev main_call2_v2 : Ref sig .tc := ⟨.hbm, 198, rfl⟩
abbrev main_call2_v3 : Ref sig .tc := ⟨.hbm, 199, rfl⟩
abbrev main_call2_v4 : Ref sig .tc := ⟨.hbm, 200, rfl⟩
abbrev main_call2_v5 : Ref sig .tc := ⟨.hbm, 201, rfl⟩
abbrev main_call2_v6 : Ref sig .tc := ⟨.hbm, 202, rfl⟩
abbrev main_call2_cst_1 : Ref sig .tc := ⟨.hbm, 203, rfl⟩
abbrev main_call2_v7 : Ref sig .tc := ⟨.hbm, 204, rfl⟩
abbrev main_call2_v8 : Ref sig .tc := ⟨.hbm, 205, rfl⟩
abbrev main_call2_v9 : Ref sig .tc := ⟨.hbm, 206, rfl⟩
abbrev main_call2_v10 : Ref sig .tc := ⟨.hbm, 207, rfl⟩
abbrev main_v149 : Ref sig .tc := ⟨.hbm, 208, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  dot_S50000x512_S512x256_S50000x256_1_0_0_1_n_n_wf : DotDims.WF S50000x512 S512x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  What both programs compute, as functions of the eight argument arrays over the extended reals.

  A three-layer graph convolution on 50000 nodes and 800000 edges (src, dst = the two rows of the edge array):
  deg[i] = 1 + #{e : dst e = i}, dinv = deg^(-1/2), norm[e] = dinv[src e] * dinv[dst e]. One layer sends a node
  array h to  agg + h * dinv^2 + b,  where agg[i] = sum over the edges e with dst e = i of h[src e] * norm[e]
  (a scatter-add of gathered rows). Layers one and two apply max(., 0) afterwards, layer three a row softmax
  followed by a row log-softmax. The dense parts are written entry by entry; the gather and the scatter-add are
  kept as the host operations both programs apply, never opened.
-/
import proofs.«404923_j6158983102957_2_alg».proof.KernelIdeal
import proofs.«404923_j6158983102957_2_alg».proof.Proof.Gen.KernelIdeal
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx Cert.KernelIdeal Cert.KernelIdeal.Facts₀

/-- An n × d array of extended reals. -/
abbrev Mat (n d : Nat) : Type := (⟨2, ![n, d]⟩ : Shape).Idx → EReal

/-! ## The dense parts, entry by entry -/

/-- The matrix product: entry (r, j) is the sum over k of x[r, k] * w[k, j]. -/
def matProd {n K D : Nat} (x : Mat n K) (w : Mat K D) : Mat n D :=
  fun i => ∑ k : Fin K, x (ix2 (n0 := n) (n1 := K) ⟨(i 0).val, (i 0).isLt⟩ k) * w (ix2 (n0 := K) (n1 := D) k ⟨(i 1).val, (i 1).isLt⟩)

/-- One layer's sum: agg[r, j] + h[r, j] * d2[r] + b[j]  (d2 a column, b a row). -/
def layerSum {n D : Nat} (agg h : Mat n D) (d2 : Mat n 1) (b : Mat 1 D) : Mat n D :=
  fun i => agg i + h i * d2 (ix2 (n0 := n) (n1 := 1) ⟨(i 0).val, (i 0).isLt⟩ 0) + b (ix2 (n0 := 1) (n1 := D) 0 ⟨(i 1).val, (i 1).isLt⟩)

/-- max(x, 0), entry by entry (the zero kept as its word). -/
def relu {n D : Nat} (x : Mat n D) : Mat n D := fun i => max (x i) (Ideal.ofBits .f32 0x00000000#32)

/-- The maximum of row r, folded from the word of minus infinity. -/
def rowMax {n D : Nat} (x : Mat n D) (r : Fin n) : EReal :=
  (Finset.univ : Finset (Fin D)).fold max (Ideal.ofBits .f32 0xFF800000#32) (fun q => x (ix2 r q))

/-- The sum of row r. -/
def rowSum {n D : Nat} (x : Mat n D) (r : Fin n) : EReal := ∑ q : Fin D, x (ix2 r q)

/-- exp(x - its row's maximum). -/
def expShift {n D : Nat} (x : Mat n D) : Mat n D :=
  fun i => Ideal.exp (x i - rowMax x ⟨(i 0).val, (i 0).isLt⟩)

/-- The row softmax: expShift x divided by its row sum. -/
def softmax {n D : Nat} (x : Mat n D) : Mat n D :=
  fun i => Ideal.div (expShift x i) (rowSum (expShift x) ⟨(i 0).val, (i 0).isLt⟩)

/-- The row log-softmax: (x - row maximum) - log(row sum of expShift x). -/
def logSoftmax {n D : Nat} (x : Mat n D) : Mat n D :=
  fun i => (x i - rowMax x ⟨(i 0).val, (i 0).isLt⟩) - Ideal.log (rowSum (expShift x) ⟨(i 0).val, (i 0).isLt⟩)

/-- The last layer's rows: log-softmax of softmax of the layer sum. -/
def finalRows {n D : Nat} (agg h : Mat n D) (d2 : Mat n 1) (b : Mat 1 D) : Mat n D :=
  logSoftmax (softmax (layerSum agg h d2 b))

/-- A bias vector as a one-row matrix. -/
def biasRow {D : Nat} (b : (⟨1, ![D]⟩ : Shape).Idx → EReal) : Mat 1 D := fun i => b (ix1 ⟨(i 1).val, (i 1).isLt⟩)

/-! ## The graph quantities, in the host operations both programs print -/

/-- Row 0 of the edge array: the source node of each edge. -/
def srcOf (ei : IVec S2x800000 32) : IVec S800000 32 :=
  shapeCast S800000 (extractStridedSlice S1x800000 ![0, 0] ei slices_S2x800000_S1x800000_0_0) shapeCasts_S1x800000_S800000

/-- Row 1 of the edge array: the destination node of each edge. -/
def dstOf (ei : IVec S2x800000 32) : IVec S800000 32 :=
  shapeCast S800000 (extractStridedSlice S1x800000 ![1, 0] ei slices_S2x800000_S1x800000_1_0) shapeCasts_S1x800000_S800000

/-- An index vector as a gather reads it: a negative index counted from the end (+ 50000), as a column. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- deg^(-1/2): one plus the scatter-add of ones at the destinations, under rsqrt. -/
def dinvOf (ei : IVec S2x800000 32) : FVec Ideal S50000 .f32 :=
  Host.rsqrt (addf (broadcastInDim S50000 ![] bcast_S_S50000 (constant S_ .f32 0x3F800000#32))
    (Host.scatterAdd scatter_S50000_S800000x1_S800000_n_0_0_1
      (broadcastInDim S50000 ![] bcast_S_S50000 (constant S_ .f32 0x00000000#32))
      (broadcastInDim S800000x1 ![0] bcast_S800000_S800000x1_0 (dstOf ei))
      (broadcastInDim S800000 ![] bcast_S_S800000 (constant S_ .f32 0x3F800000#32))))

/-- norm[e] = dinv[src e] * dinv[dst e]. -/
def normOf (ei : IVec S2x800000 32) : FVec Ideal S800000 .f32 :=
  mulf (Host.gather gather_S50000_S800000x1_S800000_n_0_n_n_0_1_1 (dinvOf ei) (wrapIdx (srcOf ei)))
    (Host.gather gather_S50000_S800000x1_S800000_n_0_n_n_0_1_1 (dinvOf ei) (wrapIdx (dstOf ei)))

/-- dinv^2 as a column. -/
def dinv2Of (ei : IVec S2x800000 32) : FVec Ideal S50000x1 .f32 :=
  fun i => dinvOf ei (ix1 ⟨(i 0).val, (i 0).isLt⟩) * dinvOf ei (ix1 ⟨(i 0).val, (i 0).isLt⟩)

/-- norm as a column. -/
def normCol (ei : IVec S2x800000 32) : FVec Ideal S800000x1 .f32 :=
  fun i => normOf ei (ix1 ⟨(i 0).val, (i 0).isLt⟩)

/-- The aggregation of a 256-wide node array: gather the source rows, scale each by its edge's norm, scatter-add
    at the destinations into zeros. -/
def agg256 (h : FVec Ideal S50000x256 .f32) (ei : IVec S2x800000 32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 (dstOf ei))
    (mulf (Host.gather gather_S50000x256_S800000x1_S800000x256_1_0_n_n_0_1_1256 h (wrapIdx (srcOf ei)))
      (broadcastInDim S800000x256 ![0, 1] bcast_S800000x1_S800000x256_0_1 (normCol ei)))

/-- The same for a 64-wide node array. -/
def agg64 (h : FVec Ideal S50000x64 .f32) (ei : IVec S2x800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dstOf ei))
    (mulf (Host.gather gather_S50000x64_S800000x1_S800000x64_1_0_n_n_0_1_164 h (wrapIdx (srcOf ei)))
      (broadcastInDim S800000x64 ![0, 1] bcast_S800000x1_S800000x64_0_1 (normCol ei)))

/-- Every source index is a node: 0 ≤ src e < 50000 as signed words. -/
def SrcOk (ei : IVec S2x800000 32) : Prop :=
  ∀ e : S800000.Idx, IntOp.cmpi .sge (srcOf ei e) 0#32 = 1#1 ∧ IntOp.cmpi .slt (srcOf ei e) 50000#32 = 1#1

/-! ## The three layers -/

/-- The hidden array after layer one. -/
def hidden1 (a0 : FVec Ideal S50000x512 .f32) (a1 : IVec S2x800000 32) (a2 : FVec Ideal S512x256 .f32) (a3 : FVec Ideal S256 .f32) :
    FVec Ideal S50000x256 .f32 :=
  relu (layerSum (agg256 (matProd a0 a2) a1) (matProd a0 a2) (dinv2Of a1) (biasRow a3))

/-- The hidden array after layer two. -/
def hidden2 (a0 : FVec Ideal S50000x512 .f32) (a1 : IVec S2x800000 32) (a2 : FVec Ideal S512x256 .f32) (a3 : FVec Ideal S256 .f32)
    (a4 : FVec Ideal S256x256 .f32) (a5 : FVec Ideal S256 .f32) : FVec Ideal S50000x256 .f32 :=
  relu (layerSum (agg256 (matProd (hidden1 a0 a1 a2 a3) a4) a1) (matProd (hidden1 a0 a1 a2 a3) a4) (dinv2Of a1) (biasRow a5))

/-- The result: layer three on the second hidden array, its rows through softmax then log-softmax. -/
def result (a0 : FVec Ideal S50000x512 .f32) (a1 : IVec S2x800000 32) (a2 : FVec Ideal S512x256 .f32) (a3 : FVec Ideal S256 .f32)
    (a4 : FVec Ideal S256x256 .f32) (a5 : FVec Ideal S256 .f32) (a6 : FVec Ideal S256x64 .f32) (a7 : FVec Ideal S64 .f32) :
    FVec Ideal S50000x64 .f32 :=
  finalRows (agg64 (matProd (hidden2 a0 a1 a2 a3 a4 a5) a6) a1) (matProd (hidden2 a0 a1 a2 a3 a4 a5) a6) (dinv2Of a1) (biasRow a7)

end Cert.Gcn

end
-- ==== Proof.PreDecode.lean ====
import proofs.«404923_j6158983102957_2_alg».proof.Defs
import proofs.«404923_j6158983102957_2_alg».proof.Proof.Gen.Pre_finite_inputs
import proofs.«404923_j6158983102957_2_alg».proof.Proof.Spec
import Idealize.ShloMosaic.Lib.ReduceAll
import Idealize.ShloMosaic.Lib.StableHlo.Predicate
import Idealize.ShloMosaic.Lib.ValueIdx

set_option maxRecDepth 16384

noncomputable section

namespace Cert.Gcn

open Idealize.ShloMosaic Idealize.ShloMosaic.TcCoe Idealize.ShloMosaic.ValueIdx Idealize.SL.Sem

/-- The precondition's last conjunct, read: every source index of the edge array is a node. -/
theorem srcOk_of_pre (m : (ℓ : Loc Cert.KernelIdeal.nD Cert.KernelIdeal.τ Cert.KernelIdeal.sig) → Buf (Elt Ideal) ℓ)
    (h : Cert.Pre_KernelIdeal m) (c : Dev Cert.KernelIdeal.nD) :
    SrcOk (m ((c.tc : Thread Cert.KernelIdeal.nD Cert.KernelIdeal.τ).loc Cert.KernelIdeal.main_arg1)) := by
  intro e
  -- the precondition at the scalar result's one index, its chain of operations laid open
  have h0 := congrFun (h c) ix0
  dsimp only [Cert.Pre_finite_inputs.fn, Cert.Pre_finite_inputs.fn_part1, Cert.Pre_finite_inputs.fn_part2] at h0
  -- the last conjunct: the `and`-reduction over all edges of (src ≥ 0) ∧ (src < 50000) is 1
  have hall := (IntOp.andi_eq_one.1 h0).2
  -- a reduction over every axis has one result index, so every edge's bit is 1
  haveI : Subsingleton Cert.Pre_finite_inputs.S_.Idx := ⟨fun a b => funext fun d => d.elim0⟩
  have he := Host.reduce_andi_all _ _ _ _ _ hall e
  -- that bit is the conjunction of the two comparisons at edge e
  obtain ⟨ha, hb⟩ := IntOp.andi_eq_one.1 he
  exact ⟨ha, hb⟩

end Cert.Gcn

end
-- ==== Proof.Take.lean ====
import proofs.«404923_j6158983102957_2_alg».proof.Proof.Spec
import Idealize.ShloMosaic.Lib.ValueIdx
import Idealize.ShloMosaic.Lib.Pipeline.Value
import Idealize.ShloMosaic.Lib.StableHlo.Predicate
import Idealize.ShloMosaic.Lib.ReduceAll

set_option maxRecDepth 16384

noncomputable section

namespace Cert.Gcn

open Idealize.ShloMosaic Idealize.ShloMosaic.ValueIdx Cert.KernelIdeal Cert.KernelIdeal.Facts₀

/-- The range test a filling gather makes on its wrapped index column: 0 ≤ idx ∧ idx ≤ 49999, per edge. -/
def inRange (v : IVec S800000 32) : IVec S800000 1 :=
  Host.reduce IntOp.andi
    (andi (cmpi .sge (wrapIdx v) (broadcastInDim S800000x1 ![] bcast_S_S800000x1 (constantI S_ 32 0#32)))
      (cmpi .sle (wrapIdx v) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- A filling row gather of a 256-wide array: the gathered row where the index is in range, the NaN word elsewhere. -/
def takeFill256 (h : FVec Ideal S50000x256 .f32) (v : IVec S800000 32) : FVec Ideal S800000x256 .f32 :=
  select (broadcastInDim S800000x256 ![0] bcast_S800000_S800000x256_0 (inRange v))
    (Host.gather gather_S50000x256_S800000x1_S800000x256_1_0_n_n_0_1_1256 h (wrapIdx v))
    (broadcastInDim S800000x256 ![] bcast_S_S800000x256 (constant S_ .f32 0x7FC00000#32))

/-- The same for a 64-wide array. -/
def takeFill64 (h : FVec Ideal S50000x64 .f32) (v : IVec S800000 32) : FVec Ideal S800000x64 .f32 :=
  select (broadcastInDim S800000x64 ![0] bcast_S800000_S800000x64_0 (inRange v))
    (Host.gather gather_S50000x64_S800000x1_S800000x64_1_0_n_n_0_1_164 h (wrapIdx v))
    (broadcastInDim S800000x64 ![] bcast_S_S800000x64 (constant S_ .f32 0x7FC00000#32))

/-! ## Words: a node index needs no wrapping and passes the range test -/

/-- A signed word in [0, 50000) is not negative, so the wrap (+ 50000 under "negative") leaves it alone. -/
private theorem wrap_word (w : BitVec 32) (h0 : IntOp.cmpi .sge w 0#32 = 1#1) :
    Scalar.select (IntOp.cmpi .slt w 0#32) (IntOp.addi w 50000#32) w = w := by
  have a0 : (0#32 : BitVec 32).toInt ≤ w.toInt := IntOp.cmpi_sge.1 h0
  have hn : ¬ IntOp.cmpi .slt w 0#32 = 1#1 := fun hc => by
    have a1 : w.toInt < (0#32 : BitVec 32).toInt := IntOp.cmpi_slt.1 hc
    omega
  unfold Scalar.select
  exact if_neg hn

/-- A signed word below 50000 is at most 49999. -/
private theorem le_word (w : BitVec 32) (h1 : IntOp.cmpi .slt w 50000#32 = 1#1) : IntOp.cmpi .sle w 49999#32 = 1#1 := by
  have a1 : w.toInt < (50000#32 : BitVec 32).toInt := IntOp.cmpi_slt.1 h1
  have e1 : (50000#32 : BitVec 32).toInt = 50000 := by decide
  have e2 : (49999#32 : BitVec 32).toInt = 49999 := by decide
  refine IntOp.cmpi_sle.2 ?_
  omega

/-! ## Reads: a vector laid along the first axis of a rectangle, and an all-ones `and`-reduction -/

/-- A vector broadcast along the first axis of an [n × D] rectangle reads, at (p, q), the vector at p. -/
private theorem bcast_first_apply {α : Type} {n D : Nat}
    (h : (⟨1, ![n]⟩ : Shape).BroadcastsInDim ⟨2, ![n, D]⟩ (![0] : Fin 1 → Fin 2)) (x : (⟨1, ![n]⟩ : Shape).Idx → α)
    (p : Fin n) (q : Fin D) : broadcastInDim ⟨2, ![n, D]⟩ (![0] : Fin 1 → Fin 2) h x (ix2 p q) = x (ix1 p) := by
  refine broadcastInDim_apply _ h x (ix2 p q) (ix1 p) (fun a => ?_)
  match a with
  | ⟨0, _⟩ =>
    show p.val = if n = 1 then 0 else p.val
    have := p.isLt
    split <;> omega

/-- An `and`-reduction from the bit 1 of an array whose every bit is 1 is 1 at every result index. -/
private theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  unfold Host.reduce
  rw [hinit]
  generalize (List.finRange s.numel).filter (fun n => h.drop (s.rowMajor.symm n) = j) = l
  induction l with
  | nil => rfl
  | cons a l ih =>
    rw [List.foldl_cons, hx (s.rowMajor.symm a)]
    have e : IntOp.andi 1#1 1#1 = 1#1 := by decide
    rw [e]
    exact ih

/-- The wrapped index column at row p is the wrap of the vector's word at p. -/
private theorem wrapIdx_apply (v : IVec S800000 32) (p : Fin 800000) (q : Fin 1) :
    wrapIdx v (ix2 p q)
      = Scalar.select (IntOp.cmpi .slt (v (ix1 p)) 0#32) (IntOp.addi (v (ix1 p)) 50000#32) (v (ix1 p)) := by
  unfold wrapIdx
  exact (bcast_first_apply _ _ p q).trans rfl

/-- Where every source index is a node, the range test passes on every edge. -/
theorem inRange_src (ei : IVec S2x800000 32) (hok : SrcOk ei) (e : S800000.Idx) : inRange (srcOf ei) e = 1#1 := by
  unfold inRange
  refine reduce_andi_ones _ _ _ _ e rfl (fun i => ?_)
  obtain ⟨p, q, rfl⟩ : ∃ (p : Fin 800000) (q : Fin 1), i = ix2 p q := ⟨i 0, i 1, eq_ix2 i⟩
  obtain ⟨h0, h1⟩ := hok (ix1 p)
  -- the wrapped index at (p, 0) is the source word itself; both constants read their word everywhere
  have hw : wrapIdx (srcOf ei) (ix2 p q) = srcOf ei (ix1 p) := (wrapIdx_apply _ p q).trans (wrap_word _ h0)
  show IntOp.andi (IntOp.cmpi .sge (wrapIdx (srcOf ei) (ix2 p q)) 0#32) (IntOp.cmpi .sle (wrapIdx (srcOf ei) (ix2 p q)) 49999#32) = 1#1
  rw [hw]
  exact IntOp.andi_eq_one.2 ⟨h0, le_word _ h1⟩

/-- ... so the filling gather is the plain gather. -/
theorem takeFill256_src (h : FVec Ideal S50000x256 .f32) (ei : IVec S2x800000 32) (hok : SrcOk ei) :
    takeFill256 h (srcOf ei) = Host.gather gather_S50000x256_S800000x1_S800000x256_1_0_n_n_0_1_1256 h (wrapIdx (srcOf ei)) := by
  funext i
  obtain ⟨p, q, rfl⟩ : ∃ (p : Fin 800000) (q : Fin 256), i = ix2 p q := ⟨i 0, i 1, eq_ix2 i⟩
  -- the mask bit at (p, q) is the range test at row p, which passes
  have hm : broadcastInDim S800000x256 ![0] bcast_S800000_S800000x256_0 (inRange (srcOf ei)) (ix2 p q) = 1#1 :=
    (bcast_first_apply _ _ p q).trans (inRange_src ei hok (ix1 p))
  unfold takeFill256
  refine (select_apply _ _ _ _).trans ?_
  rw [hm]
  exact select_one _ _

theorem takeFill64_src (h : FVec Ideal S50000x64 .f32) (ei : IVec S2x800000 32) (hok : SrcOk ei) :
    takeFill64 h (srcOf ei) = Host.gather gather_S50000x64_S800000x1_S800000x64_1_0_n_n_0_1_164 h (wrapIdx (srcOf ei)) := by
  funext i
  obtain ⟨p, q, rfl⟩ : ∃ (p : Fin 800000) (q : Fin 64), i = ix2 p q := ⟨i 0, i 1, eq_ix2 i⟩
  have hm : broadcastInDim S800000x64 ![0] bcast_S800000_S800000x64_0 (inRange (srcOf ei)) (ix2 p q) = 1#1 :=
    (bcast_first_apply _ _ p q).trans (inRange_src ei hok (ix1 p))
  unfold takeFill64
  refine (select_apply _ _ _ _).trans ?_
  rw [hm]
  exact select_one _ _

end Cert.Gcn

end
-- ==== Proof.KPlumb.lean ====
import proofs.«404923_j6158983102957_2_alg».proof.Proof.Gen.KernelIdeal.Frame
import proofs.«404923_j6158983102957_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.ChainValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! The argument arrays of core c, as launched. -/
abbrev arg0 (c : Dev nD) : FVec Ideal S50000x512 .f32 := m ((c : Thread nD τ).loc main_arg0)
abbrev arg1 (c : Dev nD) : IVec S2x800000 32 := m ((c : Thread nD τ).loc main_arg1)
abbrev arg2 (c : Dev nD) : FVec Ideal S512x256 .f32 := m ((c : Thread nD τ).loc main_arg2)
abbrev arg3 (c : Dev nD) : FVec Ideal S256 .f32 := m ((c : Thread nD τ).loc main_arg3)
abbrev arg4 (c : Dev nD) : FVec Ideal S256x256 .f32 := m ((c : Thread nD τ).loc main_arg4)
abbrev arg5 (c : Dev nD) : FVec Ideal S256 .f32 := m ((c : Thread nD τ).loc main_arg5)
abbrev arg6 (c : Dev nD) : FVec Ideal S256x64 .f32 := m ((c : Thread nD τ).loc main_arg6)
abbrev arg7 (c : Dev nD) : FVec Ideal S64 .f32 := m ((c : Thread nD τ).loc main_arg7)

/-! ## A buffer nothing writes keeps its contents

Across a host stretch a buffer keeps its contents when no operation of the stretch has it as its result: the
stretch's fold leaves it where it was, the results told apart from it reference by reference. -/

/-- No operation of the stretch writes the reference: every result reference differs from it. -/
local macro "not_written" : tactic =>
  `(tactic| (refine List.forall_iff_forall_mem.mp ?_
             simp only [hostOps0, hostOps1, hostOps1_1, hostOps2, hostOps3, hostOps3_1, hostOps4, hostOps5, hostOps5_1,
               List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- From the launch to the first product's entry. -/
private theorem kept_0_1 (c : Dev nD) (r : Ref sig .tc)
    (h0 : ∀ op ∈ (hostOps0 : List (HloOp τ sig (Elt Ideal))), Proc.devRef .tc r ∉ op.writes) :
    W1 m ρ c (Proc.devRef .tc r) = m ((c : Thread nD τ).loc r) :=
  (StableHlo.after_of_forall_not_mem _ _ h0).trans rfl

/-- From the first product's entry to the first combine's entry, for a buffer that is no array of the first product. -/
private theorem kept_1_4 (c : Dev nD) (r : Ref sig .tc) (a0 : ∀ w, Pipeline.arrRef spec0 w ≠ r)
    (h1 : ∀ op ∈ (hostOps1 : List (HloOp τ sig (Elt Ideal))), Proc.devRef .tc r ∉ op.writes)
    (h11 : ∀ op ∈ (hostOps1_1 : List (HloOp τ sig (Elt Ideal))), Proc.devRef .tc r ∉ op.writes) :
    W4 m ρ c (Proc.devRef .tc r) = W1 m ρ c (Proc.devRef .tc r) :=
  calc W4 m ρ c (Proc.devRef .tc r)
    _ = W3 m ρ c (Proc.devRef .tc r) := StableHlo.after_of_forall_not_mem _ _ h11
    _ = W2 m ρ c (Proc.devRef .tc r) := StableHlo.after_of_forall_not_mem _ _ h1
    _ = W1 m ρ c (Proc.devRef .tc r) := W2_of_ne m ρ c r a0

/-- From the first product's exit to the second product's exit, for a buffer that is no array of the first combine or of
    the second product. -/
private theorem kept_2_7 (c : Dev nD) (r : Ref sig .tc)
    (a1 : ∀ w, Pipeline.arrRef spec1 w ≠ r) (a2 : ∀ w, Pipeline.arrRef spec2 w ≠ r)
    (h1 : ∀ op ∈ (hostOps1 : List (HloOp τ sig (Elt Ideal))), Proc.devRef .tc r ∉ op.writes)
    (h11 : ∀ op ∈ (hostOps1_1 : List (HloOp τ sig (Elt Ideal))), Proc.devRef .tc r ∉ op.writes)
    (h2 : ∀ op ∈ (hostOps2 : List (HloOp τ sig (Elt Ideal))), Proc.devRef .tc r ∉ op.writes) :
    W7 m ρ c (Proc.devRef .tc r) = W2 m ρ c (Proc.devRef .tc r) :=
  calc W7 m ρ c (Proc.devRef .tc r)
    _ = W6 m ρ c (Proc.devRef .tc r) := W7_of_ne m ρ c r a2
    _ = W5 m ρ c (Proc.devRef .tc r) := StableHlo.after_of_forall_not_mem _ _ h2
    _ = W4 m ρ c (Proc.devRef .tc r) := W5_of_ne m ρ c r a1
    _ = W3 m ρ c (Proc.devRef .tc r) := StableHlo.after_of_forall_not_mem _ _ h11
    _ = W2 m ρ c (Proc.devRef .tc r) := StableHlo.after_of_forall_not_mem _ _ h1

/-- From the second product's exit to the third product's exit, likewise. -/
private theorem kept_7_12 (c : Dev nD) (r : Ref sig .tc)
    (a3 : ∀ w, Pipeline.arrRef spec3 w ≠ r) (a4 : ∀ w, Pipeline.arrRef spec4 w ≠ r)
    (h3 : ∀ op ∈ (hostOps3 : List (HloOp τ sig (Elt Ideal))), Proc.devRef .tc r ∉ op.writes)
    (h31 : ∀ op ∈ (hostOps3_1 : List (HloOp τ sig (Elt Ideal))), Proc.devRef .tc r ∉ op.writes)
    (h4 : ∀ op ∈ (hostOps4 : List (HloOp τ sig (Elt Ideal))), Proc.devRef .tc r ∉ op.writes) :
    W12 m ρ c (Proc.devRef .tc r) = W7 m ρ c (Proc.devRef .tc r) :=
  calc W12 m ρ c (Proc.devRef .tc r)
    _ = W11 m ρ c (Proc.devRef .tc r) := W12_of_ne m ρ c r a4
    _ = W10 m ρ c (Proc.devRef .tc r) := StableHlo.after_of_forall_not_mem _ _ h4
    _ = W9 m ρ c (Proc.devRef .tc r) := W10_of_ne m ρ c r a3
    _ = W8 m ρ c (Proc.devRef .tc r) := StableHlo.after_of_forall_not_mem _ _ h31
    _ = W7 m ρ c (Proc.devRef .tc r) := StableHlo.after_of_forall_not_mem _ _ h3

/-- From the first combine's entry to the second combine's entry, given that the first combine leaves the buffer as
    it finds it (it may read it). -/
private theorem kept_4_9 (c : Dev nD) (r : Ref sig .tc)
    (x1 : W5 m ρ c (Proc.devRef .tc r) = W4 m ρ c (Proc.devRef .tc r)) (a2 : ∀ w, Pipeline.arrRef spec2 w ≠ r)
    (h2 : ∀ op ∈ (hostOps2 : List (HloOp τ sig (Elt Ideal))), Proc.devRef .tc r ∉ op.writes)
    (h3 : ∀ op ∈ (hostOps3 : List (HloOp τ sig (Elt Ideal))), Proc.devRef .tc r ∉ op.writes)
    (h31 : ∀ op ∈ (hostOps3_1 : List (HloOp τ sig (Elt Ideal))), Proc.devRef .tc r ∉ op.writes) :
    W9 m ρ c (Proc.devRef .tc r) = W4 m ρ c (Proc.devRef .tc r) :=
  calc W9 m ρ c (Proc.devRef .tc r)
    _ = W8 m ρ c (Proc.devRef .tc r) := StableHlo.after_of_forall_not_mem _ _ h31
    _ = W7 m ρ c (Proc.devRef .tc r) := StableHlo.after_of_forall_not_mem _ _ h3
    _ = W6 m ρ c (Proc.devRef .tc r) := W7_of_ne m ρ c r a2
    _ = W5 m ρ c (Proc.devRef .tc r) := StableHlo.after_of_forall_not_mem _ _ h2
    _ = W4 m ρ c (Proc.devRef .tc r) := x1

/-- From the second combine's entry to the third combine's entry, likewise. -/
private theorem kept_9_14 (c : Dev nD) (r : Ref sig .tc)
    (x3 : W10 m ρ c (Proc.devRef .tc r) = W9 m ρ c (Proc.devRef .tc r)) (a4 : ∀ w, Pipeline.arrRef spec4 w ≠ r)
    (h4 : ∀ op ∈ (hostOps4 : List (HloOp τ sig (Elt Ideal))), Proc.devRef .tc r ∉ op.writes)
    (h5 : ∀ op ∈ (hostOps5 : List (HloOp τ sig (Elt Ideal))), Proc.devRef .tc r ∉ op.writes)
    (h51 : ∀ op ∈ (hostOps5_1 : List (HloOp τ sig (Elt Ideal))), Proc.devRef .tc r ∉ op.writes) :
    W14 m ρ c (Proc.devRef .tc r) = W9 m ρ c (Proc.devRef .tc r) :=
  calc W14 m ρ c (Proc.devRef .tc r)
    _ = W13 m ρ c (Proc.devRef .tc r) := StableHlo.after_of_forall_not_mem _ _ h51
    _ = W12 m ρ c (Proc.devRef .tc r) := StableHlo.after_of_forall_not_mem _ _ h5
    _ = W11 m ρ c (Proc.devRef .tc r) := W12_of_ne m ρ c r a4
    _ = W10 m ρ c (Proc.devRef .tc r) := StableHlo.after_of_forall_not_mem _ _ h4
    _ = W9 m ρ c (Proc.devRef .tc r) := x3

/-! ## What the first host stretch computes

The edge lists are the two rows of the edge array, each sliced out and flattened; the inverse-root degree is rsqrt of
one plus the count of edges arriving at each node; the edge norm is the product of the two inverse-root degrees an
edge joins. The printed operations, composed in order, are Spec's definitions term for term. -/

private theorem w1_src (c : Dev nD) : (W1 m ρ c (Proc.devRef .tc main_v1) : IVec S800000 32) = Cert.Gcn.srcOf (arg1 m c) := by
  show StableHlo.after hostOps0 (W0 m ρ c) (Proc.devRef .tc main_v1) = _
  after_results_simp
  rfl

private theorem w1_dst (c : Dev nD) : (W1 m ρ c (Proc.devRef .tc main_v3) : IVec S800000 32) = Cert.Gcn.dstOf (arg1 m c) := by
  show StableHlo.after hostOps0 (W0 m ρ c) (Proc.devRef .tc main_v3) = _
  after_results_simp
  rfl

/-- The squared inverse-root degree, as the kernel holds it: the product vector recast to a column. -/
private theorem w1_d2_cast (c : Dev nD) : (W1 m ρ c (Proc.devRef .tc main_v12) : FVec Ideal S50000x1 .f32)
    = shapeCast S50000x1 (mulf (Cert.Gcn.dinvOf (arg1 m c)) (Cert.Gcn.dinvOf (arg1 m c))) shapeCasts_S50000_S50000x1 := by
  show StableHlo.after hostOps0 (W0 m ρ c) (Proc.devRef .tc main_v12) = _
  after_results_simp
  rfl

/-- Entry (p, 0) of the recast column is entry p of the vector: the two have the same row-major position. -/
private theorem w1_d2 (c : Dev nD) : (W1 m ρ c (Proc.devRef .tc main_v12) : FVec Ideal S50000x1 .f32) = Cert.Gcn.dinv2Of (arg1 m c) := by
  refine (w1_d2_cast m ρ c).trans ?_
  unfold Cert.Gcn.dinv2Of
  generalize Cert.Gcn.dinvOf (arg1 m c) = d
  funext i
  refine (shapeCast_apply _ shapeCasts_S50000_S50000x1 i (ix1 ⟨(i 0).val, (i 0).isLt⟩) ?_).trans ?_
  · rewrite [Shape.rowMajor_val_two, Shape.rowMajor_val_one]
    have h1 : (i 1).val < 1 := (i 1).isLt
    show (i 0).val = (i 0).val * 1 + (i 1).val
    omega
  · exact mulf_apply d d _

/-- The edge norm, as the kernel holds it: the product vector recast to a column. -/
private theorem w1_nrm_cast (c : Dev nD) : (W1 m ρ c (Proc.devRef .tc main_v28) : FVec Ideal S800000x1 .f32)
    = shapeCast S800000x1 (Cert.Gcn.normOf (arg1 m c)) shapeCasts_S800000_S800000x1 := by
  show StableHlo.after hostOps0 (W0 m ρ c) (Proc.devRef .tc main_v28) = _
  after_results_simp
  rfl

private theorem w1_nrm (c : Dev nD) : (W1 m ρ c (Proc.devRef .tc main_v28) : FVec Ideal S800000x1 .f32) = Cert.Gcn.normCol (arg1 m c) := by
  refine (w1_nrm_cast m ρ c).trans ?_
  unfold Cert.Gcn.normCol
  generalize Cert.Gcn.normOf (arg1 m c) = d
  funext i
  refine shapeCast_apply _ shapeCasts_S800000_S800000x1 i (ix1 ⟨(i 0).val, (i 0).isLt⟩) ?_
  rewrite [Shape.rowMajor_val_two, Shape.rowMajor_val_one]
  have h1 : (i 1).val < 1 := (i 1).isLt
  show (i 0).val = (i 0).val * 1 + (i 1).val
  omega

/-! ## Entering the first product: the two operands are the arguments (a change of float format is the identity) -/

theorem w1_x (c : Dev nD) : (W1 m ρ c (Proc.devRef .tc main_v29) : FVec Ideal S50000x512 .f32) = arg0 m c := by
  show StableHlo.after hostOps0 (W0 m ρ c) (Proc.devRef .tc main_v29) = _
  after_results_simp
  rfl
theorem w1_w (c : Dev nD) : (W1 m ρ c (Proc.devRef .tc main_v30) : FVec Ideal S512x256 .f32) = arg2 m c := by
  show StableHlo.after hostOps0 (W0 m ρ c) (Proc.devRef .tc main_v30) = _
  after_results_simp
  rfl

/-! ## Leaving each product (entering each aggregation): the edge lists, the norm column and the layer's bias -/

theorem w2_src (c : Dev nD) : (W2 m ρ c (Proc.devRef .tc main_v1) : IVec S800000 32) = Cert.Gcn.srcOf (arg1 m c) := by
  exact (W2_of_ne m ρ c main_v1 (by decide)).trans (w1_src m ρ c)
theorem w2_dst (c : Dev nD) : (W2 m ρ c (Proc.devRef .tc main_v3) : IVec S800000 32) = Cert.Gcn.dstOf (arg1 m c) := by
  exact (W2_of_ne m ρ c main_v3 (by decide)).trans (w1_dst m ρ c)
theorem w2_nrm (c : Dev nD) : (W2 m ρ c (Proc.devRef .tc main_v28) : FVec Ideal S800000x1 .f32) = Cert.Gcn.normCol (arg1 m c) := by
  exact (W2_of_ne m ρ c main_v28 (by decide)).trans (w1_nrm m ρ c)
theorem w2_b (c : Dev nD) : (W2 m ρ c (Proc.devRef .tc main_arg3) : FVec Ideal S256 .f32) = arg3 m c := by
  exact (W2_of_ne m ρ c main_arg3 (by decide)).trans (kept_0_1 m ρ c main_arg3 (by not_written))

theorem w7_src (c : Dev nD) : (W7 m ρ c (Proc.devRef .tc main_v1) : IVec S800000 32) = Cert.Gcn.srcOf (arg1 m c) := by
  exact (kept_2_7 m ρ c main_v1 (by decide) (by decide) (by not_written) (by not_written) (by not_written)).trans (w2_src m ρ c)
theorem w7_dst (c : Dev nD) : (W7 m ρ c (Proc.devRef .tc main_v3) : IVec S800000 32) = Cert.Gcn.dstOf (arg1 m c) := by
  exact (kept_2_7 m ρ c main_v3 (by decide) (by decide) (by not_written) (by not_written) (by not_written)).trans (w2_dst m ρ c)
theorem w7_nrm (c : Dev nD) : (W7 m ρ c (Proc.devRef .tc main_v28) : FVec Ideal S800000x1 .f32) = Cert.Gcn.normCol (arg1 m c) := by
  exact (kept_2_7 m ρ c main_v28 (by decide) (by decide) (by not_written) (by not_written) (by not_written)).trans (w2_nrm m ρ c)
theorem w7_b (c : Dev nD) : (W7 m ρ c (Proc.devRef .tc main_arg5) : FVec Ideal S256 .f32) = arg5 m c := by
  exact (kept_2_7 m ρ c main_arg5 (by decide) (by decide) (by not_written) (by not_written) (by not_written)).trans
    ((W2_of_ne m ρ c main_arg5 (by decide)).trans (kept_0_1 m ρ c main_arg5 (by not_written)))

theorem w12_src (c : Dev nD) : (W12 m ρ c (Proc.devRef .tc main_v1) : IVec S800000 32) = Cert.Gcn.srcOf (arg1 m c) := by
  exact (kept_7_12 m ρ c main_v1 (by decide) (by decide) (by not_written) (by not_written) (by not_written)).trans (w7_src m ρ c)
theorem w12_dst (c : Dev nD) : (W12 m ρ c (Proc.devRef .tc main_v3) : IVec S800000 32) = Cert.Gcn.dstOf (arg1 m c) := by
  exact (kept_7_12 m ρ c main_v3 (by decide) (by decide) (by not_written) (by not_written) (by not_written)).trans (w7_dst m ρ c)
theorem w12_nrm (c : Dev nD) : (W12 m ρ c (Proc.devRef .tc main_v28) : FVec Ideal S800000x1 .f32) = Cert.Gcn.normCol (arg1 m c) := by
  exact (kept_7_12 m ρ c main_v28 (by decide) (by decide) (by not_written) (by not_written) (by not_written)).trans (w7_nrm m ρ c)
theorem w12_b (c : Dev nD) : (W12 m ρ c (Proc.devRef .tc main_arg7) : FVec Ideal S64 .f32) = arg7 m c := by
  exact (kept_7_12 m ρ c main_arg7 (by decide) (by decide) (by not_written) (by not_written) (by not_written)).trans
    ((kept_2_7 m ρ c main_arg7 (by decide) (by decide) (by not_written) (by not_written) (by not_written)).trans
      ((W2_of_ne m ρ c main_arg7 (by decide)).trans (kept_0_1 m ρ c main_arg7 (by not_written))))

/-- A combine reads the column through an input window and never writes it back: at the combine's exit the column is
    as at its entry. -/
private theorem d2_across_1 (c : Dev nD) : W5 m ρ c (Proc.devRef .tc main_v12) = W4 m ρ c (Proc.devRef .tc main_v12) :=
  (W5_arr m ρ c 2).trans (((dat1 (V4 m ρ) c).arrAt_in 2 rfl cfg1.N).trans (A_eq1 (V4 m ρ) c 2))
private theorem d2_across_3 (c : Dev nD) : W10 m ρ c (Proc.devRef .tc main_v12) = W9 m ρ c (Proc.devRef .tc main_v12) :=
  (W10_arr m ρ c 2).trans (((dat3 (V9 m ρ) c).arrAt_in 2 rfl cfg3.N).trans (A_eq3 (V9 m ρ) c 2))

/-! ## Entering each combine: the squared inverse-root degree, as a column -/

theorem w4_d2 (c : Dev nD) : (W4 m ρ c (Proc.devRef .tc main_v12) : FVec Ideal S50000x1 .f32) = Cert.Gcn.dinv2Of (arg1 m c) := by
  exact (kept_1_4 m ρ c main_v12 (by decide) (by not_written) (by not_written)).trans (w1_d2 m ρ c)
theorem w9_d2 (c : Dev nD) : (W9 m ρ c (Proc.devRef .tc main_v12) : FVec Ideal S50000x1 .f32) = Cert.Gcn.dinv2Of (arg1 m c) := by
  exact (kept_4_9 m ρ c main_v12 (d2_across_1 m ρ c) (by decide) (by not_written) (by not_written) (by not_written)).trans (w4_d2 m ρ c)
theorem w14_d2 (c : Dev nD) : (W14 m ρ c (Proc.devRef .tc main_v12) : FVec Ideal S50000x1 .f32) = Cert.Gcn.dinv2Of (arg1 m c) := by
  exact (kept_9_14 m ρ c main_v12 (d2_across_3 m ρ c) (by decide) (by not_written) (by not_written) (by not_written)).trans (w9_d2 m ρ c)

/-! ## Leaving each combine: the next layer's weights -/

theorem w5_w (c : Dev nD) : (W5 m ρ c (Proc.devRef .tc main_arg4) : FVec Ideal S256x256 .f32) = arg4 m c := by
  exact (W5_of_ne m ρ c main_arg4 (by decide)).trans
    ((kept_1_4 m ρ c main_arg4 (by decide) (by not_written) (by not_written)).trans (kept_0_1 m ρ c main_arg4 (by not_written)))
theorem w10_w (c : Dev nD) : (W10 m ρ c (Proc.devRef .tc main_arg6) : FVec Ideal S256x64 .f32) = arg6 m c := by
  exact (W10_of_ne m ρ c main_arg6 (by decide)).trans
    ((kept_4_9 m ρ c main_arg6 (W5_of_ne m ρ c main_arg6 (by decide)) (by decide) (by not_written) (by not_written) (by not_written)).trans
      ((kept_1_4 m ρ c main_arg6 (by decide) (by not_written) (by not_written)).trans (kept_0_1 m ρ c main_arg6 (by not_written))))

end Cert.KernelIdeal.ChainValue

end
-- ==== Proof.KRegion4.lean ====
import proofs.«404923_j6158983102957_2_alg».proof.Proof.Gen.KernelIdeal.Frame
import proofs.«404923_j6158983102957_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's product, entry by entry -/

/-- The matrix product read at explicit coordinates: the sum over the inner axis of the products. -/
private theorem matProd_apply4 (x : Cert.Gcn.Mat 50000 256) (w : Cert.Gcn.Mat 256 64) (p : Fin 50000) (q : Fin 64) :
    Cert.Gcn.matProd x w (ix2 p q) = ∑ k : Fin 256, x (ix2 p k) * w (ix2 k q) := rfl

/-- The dot's left operand index keeps the output's row. -/
private theorem lhs4_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- Its column is the contraction index. -/
private theorem lhs4_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right operand's row is the contraction index. -/
private theorem rhs4_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- Its column is the output's column. -/
private theorem rhs4_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The body's payload at entry (p, q) of a block: the two shape casts are identities, and the product into the
    zero accumulator is the sum over the inner axis of the products of the loaded blocks' entries. -/
private theorem pay4_apply (x0 : Vec Ideal S5000x256 .bf16) (x1 : Vec Ideal S256x64 .bf16) (p : Fin 5000) (q : Fin 64) :
    k4_pay1 (F := Ideal) x0 x1 (ix2 p q) = ∑ k : Fin 256, x0 (ix2 p k) * x1 (ix2 k q) := by
  unfold k4_pay1
  rw [shapeCast_self, shapeCast_self]
  refine (Ideal.matmul_constant_zero_apply (φ₁ := .bf16) (φ₂ := .bf16) dot_S5000x256_S256x64_S5000x64_1_0_0_1_n_n none x0 x1 (ix2 p q)).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k := funext fun a => Fin.ext (by
    match a with
    | ⟨0, _⟩ => exact lhs4_0 _ _
    | ⟨1, _⟩ => exact (lhs4_1 _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q := funext fun a => Fin.ext (by
    match a with
    | ⟨0, _⟩ => exact (rhs4_0 _ _).trans hk
    | ⟨1, _⟩ => exact rhs4_1 _ _)
  rw [el, er]

variable (V : (c : Dev nD) → (b : Ref sig .tc) → Buf (Elt Ideal) ((c : Thread nD τ).loc b))

/-! ## The blocks against the arrays -/

private theorem hz4 : (![0, 0] : Fin 2 → Nat) = fun _ => 0 := funext fun a => by fin_cases a <;> rfl

/-- The printed index maps over the ten grid points: the row operand's block row is the output's, every other block
    index is zero, and the output's block row is at most nine. -/
private theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every block row of the output is some grid point's. -/
private theorem idx_onto4 : ∀ q0 : Fin 10, ∃ t : Fin cfg4.N, win4_2.index t = ![q0.val, 0] :=
  (by decide +kernel : ∀ q0 : Fin 10, ∃ t : Fin grid4.N, win4_2.index t = ![q0.val, 0])

/-- What grid point t writes back is block t of the matrix product of the two input arrays: entry (p, q) of the block
    is the sum over k of the row block's (p, k) times the weights' (k, q), and the row block's row p is the array's row
    5000 * (block row) + p. -/
private theorem flushed4_eq (c : Dev nD) (t : Fin cfg4.N) :
    (dat4 (F := Ideal) V c).flushed 2 t
      = ((cfg4.win 2).blk t).view.read (Elt Ideal) (Cert.Gcn.matProd (V c main_v49) (V c main_v50)) := by
  show (cfg4.win 2).cut (grid4.coords t) ((dat4 (F := Ideal) V c).after 2 t) = _
  rw [after4_2]
  unfold out4_2
  rw [View.canon_unit_zero hz4]
  simp only [View.ld_unit_zero (S := S5000x256) hz4, View.ld_unit_zero (S := S256x64) hz4]
  obtain ⟨e0, e1, e2, e3, e4, e5⟩ := idx_facts4 t
  funext j
  obtain ⟨p, q, rfl⟩ : ∃ (p : Fin 5000) (q : Fin 64), j = ix2 p q := ⟨j 0, j 1, eq_ix2 j⟩
  have hp : p.val < 5000 := p.isLt
  have hemb : ((cfg4.win 2).blk t).view.emb (ix2 p q)
      = ix2 (⟨win4_2.index t (0 : Fin 2) * 5000 + p.val, by omega⟩ : Fin 50000) q := by
    funext a; apply Fin.ext
    match a with
    | ⟨0, _⟩ => show win4_2.index t (0 : Fin 2) * 5000 + 1 * p.val = win4_2.index t (0 : Fin 2) * 5000 + p.val; omega
    | ⟨1, _⟩ => show win4_2.index t (1 : Fin 2) * 64 + 1 * q.val = q.val; omega
  show k4_pay1 (F := Ideal) (iblk4 V c 0 t) (iblk4 V c 1 t) (ix2 p q)
    = Cert.Gcn.matProd (V c main_v49) (V c main_v50) (((cfg4.win 2).blk t).view.emb (ix2 p q))
  rw [hemb, matProd_apply4]
  refine (pay4_apply _ _ p q).trans ?_
  refine Finset.sum_congr rfl fun k _ => ?_
  have h0 : iblk4 V c 0 t (ix2 p k)
      = V c main_v49 (ix2 (⟨win4_2.index t (0 : Fin 2) * 5000 + p.val, by omega⟩ : Fin 50000) k) := by
    show V c main_v49 (((cfg4.win 0).blk t).view.emb (ix2 p k)) = _
    refine congrArg _ ?_
    funext a; apply Fin.ext
    match a with
    | ⟨0, _⟩ => show win4_0.index t (0 : Fin 2) * 5000 + 1 * p.val = win4_2.index t (0 : Fin 2) * 5000 + p.val; omega
    | ⟨1, _⟩ => show win4_0.index t (1 : Fin 2) * 256 + 1 * k.val = k.val; omega
  have h1 : iblk4 V c 1 t (ix2 k q) = V c main_v50 (ix2 k q) := by
    show V c main_v50 (((cfg4.win 1).blk t).view.emb (ix2 k q)) = _
    refine congrArg _ ?_
    funext a; apply Fin.ext
    match a with
    | ⟨0, _⟩ => show win4_1.index t (0 : Fin 2) * 256 + 1 * k.val = k.val; omega
    | ⟨1, _⟩ => show win4_1.index t (1 : Fin 2) * 64 + 1 * q.val = q.val; omega
  rw [h0, h1]

/-- An index of the output array is in point t's block iff each coordinate is in the block's range on its axis. -/
private theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v51).slice (win4_2.rect t)).set ↔ _
  rw [View.set_slice_whole, Rect.mem_set_unit]
  exact Iff.rfl

/-- The ten blocks tile the array: row r lies in the block of the point whose block row is r / 5000. -/
private theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The whole output array of the third product kernel is the matrix product of its two input arrays: every grid point
    writes its block of the product, and the blocks tile the array. -/
theorem arr4 (c : Dev nD) : (dat4 (F := Ideal) V c).arrAt 2 cfg4.N = Cert.Gcn.matProd (V c main_v49) (V c main_v50) :=
  (dat4 (F := Ideal) V c).arrAt_eq_of_cover 2 (Cert.Gcn.matProd (V c main_v49) (V c main_v50))
    (fun t _ => flushed4_eq V c t) cover4

end Cert.KernelIdeal.RegionValue

end
-- ==== Proof.KRegion5.lean ====
import proofs.«404923_j6158983102957_2_alg».proof.Proof.Gen.KernelIdeal.Frame
import proofs.«404923_j6158983102957_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's operations read at a row and a lane -/

/-- The index a lane reduction inserts at row p and lane k is (p, k). -/
private theorem lift_row (h : S5000x64.Reduces [1] S5000) (p : Fin 5000) (k : Fin 64) :
    h.lift (ix1 p) k = ix2 p k := by
  funext c; apply Fin.ext; fin_cases c <;> rfl

/-- The lane maximum of a block at row p is that row's maximum. -/
private theorem redMax_row (x : FVec Ideal S5000x64 .f32) (h : S5000x64.Reduces [1] S5000) (hφ : FKind.Formats .f32)
    (hacc : (0xFF800000#32 : BitVec 32) = FKind.maximumf.neutral .f32 hφ) (p : Fin 5000) :
    multiReduction (F := Ideal) .maximumf [1] S5000 x 0xFF800000#32 h hφ hacc (ix1 p) = Cert.Gcn.rowMax x p := by
  refine (Ideal.multiReduction_maximumf_single x _ h hφ hacc (ix1 p)).trans ?_
  have e : (x ∘ h.lift (ix1 p)) = fun q : Fin 64 => x (ix2 p q) := funext fun k => congrArg x (lift_row h p k)
  rw [e]
  rfl

/-- The lane sum of a block at row p is that row's sum. -/
private theorem redSum_row (x : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 x 0x00000000#32 h hφ hacc (ix1 p) = Cert.Gcn.rowSum x p := by
  refine (Ideal.multiReduction_add_single x _ h hφ hacc (ix1 p)).trans ?_
  exact Finset.sum_congr rfl fun k _ => congrArg x (lift_row h p k)

/-- A row vector as a column read at (p, 0) is the vector at p. -/
private theorem col_apply (v : FVec Ideal S5000 .f32) (h : S5000.ShapeCasts S5000x1) (p : Fin 5000) (z : Fin 1) :
    shapeCast S5000x1 v h (ix2 p z) = v (ix1 p) := by
  refine shapeCast_apply v h (ix2 p z) (ix1 p) ?_
  rw [Shape.rowMajor_val_one, Shape.rowMajor_val_two]
  show p.val = p.val * 1 + z.val
  omega

/-- A column broadcast along the lanes read at (p, q) is the column at (p, 0). -/
private theorem bcastCol_apply (v : FVec Ideal S5000x1 .f32) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A bias row broadcast along the rows read at (p, q) is the row at (0, q). -/
private theorem bcastRow_apply (v : FVec Ideal S1x64 .f32) (h : S1x64.Broadcasts S5000x64) (p : Fin 5000) (q : Fin 64) :
    broadcastTo S5000x64 v h (ix2 p q) = v (ix2 (0 : Fin 1) q) :=
  broadcastTo_1b_ab_apply v h p q

/-- A row statistic, cast to a column and broadcast along the lanes, read at (p, q) is the statistic of row p. -/
private theorem stat_apply (v : FVec Ideal S5000 .f32) (hs : S5000.ShapeCasts S5000x1) (hb : S5000x1.Broadcasts S5000x64)
    (p : Fin 5000) (q : Fin 64) :
    broadcastTo S5000x64 (shapeCast S5000x1 v hs) hb (ix2 p q) = v (ix1 p) :=
  (bcastCol_apply _ hb p q).trans (col_apply v hs p 0)

/-! ## The body's stages as the specification's functions of a block -/

/-- agg + hlin * dinv2 + b on the loaded blocks is the layer sum of the blocks. -/
private theorem pre_eq (x0 x1 : FVec Ideal S5000x64 .f32) (x2 : FVec Ideal S5000x1 .f32) (x3 : FVec Ideal S1x64 .f32)
    (hc : S5000x1.Broadcasts S5000x64) (hr : S1x64.Broadcasts S5000x64) :
    addf (addf x0 (mulf x1 (broadcastTo S5000x64 x2 hc))) (broadcastTo S5000x64 x3 hr)
      = Cert.Gcn.layerSum (n := 5000) (D := 64) x0 x1 x2 x3 := by
  funext j
  obtain ⟨p, q, rfl⟩ : ∃ (p : Fin 5000) (q : Fin 64), j = ix2 p q := ⟨j 0, j 1, eq_ix2 j⟩
  show x0 (ix2 p q) + x1 (ix2 p q) * broadcastTo S5000x64 x2 hc (ix2 p q) + broadcastTo S5000x64 x3 hr (ix2 p q) = _
  rw [bcastCol_apply, bcastRow_apply]
  rfl

/-- exp of a block less its lane maximum, broadcast back, is the shifted exponential of the block. -/
private theorem expShift_eq (x : FVec Ideal S5000x64 .f32) (h : S5000x64.Reduces [1] S5000) (hφ : FKind.Formats .f32)
    (hacc : (0xFF800000#32 : BitVec 32) = FKind.maximumf.neutral .f32 hφ)
    (hs : S5000.ShapeCasts S5000x1) (hb : S5000x1.Broadcasts S5000x64) :
    exp (subf x (broadcastTo S5000x64 (shapeCast S5000x1 (multiReduction (F := Ideal) .maximumf [1] S5000 x 0xFF800000#32 h hφ hacc) hs) hb))
      = Cert.Gcn.expShift (n := 5000) (D := 64) x := by
  funext j
  obtain ⟨p, q, rfl⟩ : ∃ (p : Fin 5000) (q : Fin 64), j = ix2 p q := ⟨j 0, j 1, eq_ix2 j⟩
  show Ideal.exp (x (ix2 p q) - broadcastTo S5000x64 (shapeCast S5000x1 _ hs) hb (ix2 p q)) = _
  rw [stat_apply, redMax_row]
  rfl

/-- The shifted exponential divided by its lane sum, broadcast back, is the softmax of the block. -/
private theorem softmax_eq (x : FVec Ideal S5000x64 .f32) (h : S5000x64.Reduces [1] S5000) (hφ : FKind.Formats .f32)
    (hacc : (0x00000000#32 : BitVec 32) = FKind.add.neutral .f32 hφ)
    (hs : S5000.ShapeCasts S5000x1) (hb : S5000x1.Broadcasts S5000x64) :
    divf (Cert.Gcn.expShift (n := 5000) (D := 64) x)
        (broadcastTo S5000x64 (shapeCast S5000x1 (multiReduction (F := Ideal) .add [1] S5000 (Cert.Gcn.expShift (n := 5000) (D := 64) x) 0x00000000#32 h hφ hacc) hs) hb)
      = Cert.Gcn.softmax (n := 5000) (D := 64) x := by
  funext j
  obtain ⟨p, q, rfl⟩ : ∃ (p : Fin 5000) (q : Fin 64), j = ix2 p q := ⟨j 0, j 1, eq_ix2 j⟩
  show Ideal.div (Cert.Gcn.expShift (n := 5000) (D := 64) x (ix2 p q)) (broadcastTo S5000x64 (shapeCast S5000x1 _ hs) hb (ix2 p q)) = _
  rw [stat_apply, redSum_row]
  rfl

/-- A block less its lane maximum, less the logarithm of the lane sum of its shifted exponential, is the
    log-softmax of the block. -/
private theorem logSoftmax_eq (y : FVec Ideal S5000x64 .f32) (h : S5000x64.Reduces [1] S5000) (hφ : FKind.Formats .f32)
    (hmax : (0xFF800000#32 : BitVec 32) = FKind.maximumf.neutral .f32 hφ)
    (hadd : (0x00000000#32 : BitVec 32) = FKind.add.neutral .f32 hφ)
    (hs : S5000.ShapeCasts S5000x1) (hb : S5000x1.Broadcasts S5000x64) :
    subf (subf y (broadcastTo S5000x64 (shapeCast S5000x1 (multiReduction (F := Ideal) .maximumf [1] S5000 y 0xFF800000#32 h hφ hmax) hs) hb))
        (broadcastTo S5000x64 (log (shapeCast S5000x1 (multiReduction (F := Ideal) .add [1] S5000 (Cert.Gcn.expShift (n := 5000) (D := 64) y) 0x00000000#32 h hφ hadd) hs)) hb)
      = Cert.Gcn.logSoftmax (n := 5000) (D := 64) y := by
  funext j
  obtain ⟨p, q, rfl⟩ : ∃ (p : Fin 5000) (q : Fin 64), j = ix2 p q := ⟨j 0, j 1, eq_ix2 j⟩
  show (y (ix2 p q) - broadcastTo S5000x64 (shapeCast S5000x1 _ hs) hb (ix2 p q))
      - broadcastTo S5000x64 (log (shapeCast S5000x1 _ hs)) hb (ix2 p q) = _
  rw [stat_apply, redMax_row, bcastCol_apply]
  show (y (ix2 p q) - Cert.Gcn.rowMax y p) - Ideal.log (shapeCast S5000x1 _ hs (ix2 p (0 : Fin 1))) = _
  rw [col_apply, redSum_row]
  rfl

/-- The body's payload is the last layer's rows of its four loaded blocks. -/
private theorem pay_eq (x0 x1 : Vec Ideal S5000x64 .f32) (x2 : Vec Ideal S5000x1 .f32) (x3 : Vec Ideal S1x64 .f32) :
    k5_pay1 x0 x1 x2 x3 = Cert.Gcn.finalRows (n := 5000) (D := 64) x0 x1 x2 x3 := by
  unfold k5_pay1 Cert.Gcn.finalRows
  simp only [shapeCast_self]
  rw [pre_eq]
  erw [expShift_eq, softmax_eq, expShift_eq, logSoftmax_eq]

/-! ## A block's rows are rows of the arrays

Every function of the specification acts row by row: when the rows of one tuple of matrices are rows `r p` of
another (the bias row the same), each stage at row `p` is the other's at row `r p`. -/

section Rows
open Cert.Gcn
variable {n N D : Nat} (r : Fin n → Fin N)

private theorem rowMax_rows (X : Mat n D) (Y : Mat N D) (h : ∀ p q, X (ix2 p q) = Y (ix2 (r p) q)) (p : Fin n) :
    rowMax X p = rowMax Y (r p) := by
  unfold rowMax
  exact congrArg (fun f => Finset.fold max _ f Finset.univ) (funext fun q => h p q)

private theorem rowSum_rows (X : Mat n D) (Y : Mat N D) (h : ∀ p q, X (ix2 p q) = Y (ix2 (r p) q)) (p : Fin n) :
    rowSum X p = rowSum Y (r p) :=
  Finset.sum_congr rfl fun q _ => h p q

private theorem expShift_rows (X : Mat n D) (Y : Mat N D) (h : ∀ p q, X (ix2 p q) = Y (ix2 (r p) q)) (p : Fin n) (q : Fin D) :
    expShift X (ix2 p q) = expShift Y (ix2 (r p) q) := by
  show Ideal.exp (X (ix2 p q) - rowMax X p) = Ideal.exp (Y (ix2 (r p) q) - rowMax Y (r p))
  rw [h p q, rowMax_rows r X Y h p]

private theorem softmax_rows (X : Mat n D) (Y : Mat N D) (h : ∀ p q, X (ix2 p q) = Y (ix2 (r p) q)) (p : Fin n) (q : Fin D) :
    softmax X (ix2 p q) = softmax Y (ix2 (r p) q) := by
  show Ideal.div (expShift X (ix2 p q)) (rowSum (expShift X) p) = Ideal.div (expShift Y (ix2 (r p) q)) (rowSum (expShift Y) (r p))
  rw [expShift_rows r X Y h p q, rowSum_rows r _ _ (expShift_rows r X Y h) p]

private theorem logSoftmax_rows (X : Mat n D) (Y : Mat N D) (h : ∀ p q, X (ix2 p q) = Y (ix2 (r p) q)) (p : Fin n) (q : Fin D) :
    logSoftmax X (ix2 p q) = logSoftmax Y (ix2 (r p) q) := by
  show (X (ix2 p q) - rowMax X p) - Ideal.log (rowSum (expShift X) p)
    = (Y (ix2 (r p) q) - rowMax Y (r p)) - Ideal.log (rowSum (expShift Y) (r p))
  rw [h p q, rowMax_rows r X Y h p, rowSum_rows r _ _ (expShift_rows r X Y h) p]

private theorem layerSum_rows (A H : Mat n D) (d : Mat n 1) (b : Mat 1 D) (A' H' : Mat N D) (d' : Mat N 1) (b' : Mat 1 D)
    (hA : ∀ p q, A (ix2 p q) = A' (ix2 (r p) q)) (hH : ∀ p q, H (ix2 p q) = H' (ix2 (r p) q))
    (hd : ∀ p, d (ix2 p (0 : Fin 1)) = d' (ix2 (r p) (0 : Fin 1))) (hb : ∀ q, b (ix2 (0 : Fin 1) q) = b' (ix2 (0 : Fin 1) q))
    (p : Fin n) (q : Fin D) :
    layerSum A H d b (ix2 p q) = layerSum A' H' d' b' (ix2 (r p) q) := by
  show A (ix2 p q) + H (ix2 p q) * d (ix2 p (0 : Fin 1)) + b (ix2 (0 : Fin 1) q)
    = A' (ix2 (r p) q) + H' (ix2 (r p) q) * d' (ix2 (r p) (0 : Fin 1)) + b' (ix2 (0 : Fin 1) q)
  rw [hA p q, hH p q, hd p, hb q]

private theorem finalRows_rows (A H : Mat n D) (d : Mat n 1) (b : Mat 1 D) (A' H' : Mat N D) (d' : Mat N 1) (b' : Mat 1 D)
    (hA : ∀ p q, A (ix2 p q) = A' (ix2 (r p) q)) (hH : ∀ p q, H (ix2 p q) = H' (ix2 (r p) q))
    (hd : ∀ p, d (ix2 p (0 : Fin 1)) = d' (ix2 (r p) (0 : Fin 1))) (hb : ∀ q, b (ix2 (0 : Fin 1) q) = b' (ix2 (0 : Fin 1) q))
    (p : Fin n) (q : Fin D) :
    finalRows A H d b (ix2 p q) = finalRows A' H' d' b' (ix2 (r p) q) :=
  logSoftmax_rows r _ _ (softmax_rows r _ _ (layerSum_rows r A H d b A' H' d' b' hA hH hd hb)) p q

end Rows

/-! ## From the grid's blocks to the array -/

private theorem hz : (![0, 0] : Fin 2 → Nat) = fun _ => 0 := funext fun a => by fin_cases a <;> rfl

/-- The printed index maps over the ten points: every row-blocked window's block index is (t, 0), the bias row's (0, 0). -/
private theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of the block of point t is row 5000·t + p of the array. -/
private def rowOf (t : Fin cfg5.N) (p : Fin 5000) : Fin 50000 :=
  ⟨t.val * 5000 + p.val, by have := t.isLt; have := p.isLt; have : cfg5.N = 10 := rfl; omega⟩

/-- Where the output block of point t puts its entry (p, q). -/
private theorem emb_out (t : Fin cfg5.N) (p : Fin 5000) (q : Fin 64) :
    ((cfg5.win 4).blk t).view.emb (ix2 p q) = ix2 (rowOf t p) q := by
  obtain ⟨-, -, -, -, -, -, -, -, e0, e1⟩ := idx_facts t
  funext a; apply Fin.ext
  match a with
  | ⟨0, _⟩ => show win5_4.index t (0 : Fin 2) * 5000 + 1 * p.val = t.val * 5000 + p.val; omega
  | ⟨1, _⟩ => show win5_4.index t (1 : Fin 2) * 64 + 1 * q.val = q.val; omega

/-- The agg block of point t at (p, q) is the array at (5000·t + p, q). -/
private theorem blk0_apply (c : Dev nD) (t : Fin cfg5.N) (p : Fin 5000) (q : Fin 64) :
    iblk5 V c 0 t (ix2 p q) = V c main_v57 (ix2 (rowOf t p) q) := by
  obtain ⟨e0, e1, -⟩ := idx_facts t
  show V c main_v57 (((cfg5.win 0).blk t).view.emb (ix2 p q)) = _
  refine congrArg (V c main_v57) (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * q.val = q.val; omega

/-- The hlin block of point t at (p, q) is the array at (5000·t + p, q). -/
private theorem blk1_apply (c : Dev nD) (t : Fin cfg5.N) (p : Fin 5000) (q : Fin 64) :
    iblk5 V c 1 t (ix2 p q) = V c main_v51 (ix2 (rowOf t p) q) := by
  obtain ⟨-, -, e0, e1, -⟩ := idx_facts t
  show V c main_v51 (((cfg5.win 1).blk t).view.emb (ix2 p q)) = _
  refine congrArg (V c main_v51) (funext fun a => Fin.ext ?_)
  match a with
  | ⟨0, _⟩ => show win5_1.index t (0 : Fin 2) * 5000 + 1 * p.val = t.val * 5000 + p.val; omega
  | ⟨1, _⟩ => show win5_1.index t (1 : Fin 2) * 64 + 1 * q.val = q.val; omega

/-- The dinv2 block of point t at (p, 0) is the column at (5000·t + p, 0). -/
private theorem blk2_apply (c : Dev nD) (t : Fin cfg5.N) (p : Fin 5000) :
    iblk5 V c 2 t (ix2 p (0 : Fin 1)) = V c main_v12 (ix2 (rowOf t p) (0 : Fin 1)) := by
  obtain ⟨-, -, -, -, e0, e1, -⟩ := idx_facts t
  show V c main_v12 (((cfg5.win 2).blk t).view.emb (ix2 p (0 : Fin 1))) = _
  refine congrArg (V c main_v12) (funext fun a => Fin.ext ?_)
  match a with
  | ⟨0, _⟩ => show win5_2.index t (0 : Fin 2) * 5000 + 1 * p.val = t.val * 5000 + p.val; omega
  | ⟨1, _⟩ => show win5_2.index t (1 : Fin 2) * 1 + 1 * 0 = 0; omega

/-- The bias block of every point is the whole bias row. -/
private theorem blk3_apply (c : Dev nD) (t : Fin cfg5.N) (q : Fin 64) :
    iblk5 V c 3 t (ix2 (0 : Fin 1) q) = V c main_v58 (ix2 (0 : Fin 1) q) := by
  obtain ⟨-, -, -, -, -, -, e0, e1, -⟩ := idx_facts t
  show V c main_v58 (((cfg5.win 3).blk t).view.emb (ix2 (0 : Fin 1) q)) = _
  refine congrArg (V c main_v58) (funext fun a => Fin.ext ?_)
  match a with
  | ⟨0, _⟩ => show win5_3.index t (0 : Fin 2) * 1 + 1 * 0 = 0; omega
  | ⟨1, _⟩ => show win5_3.index t (1 : Fin 2) * 64 + 1 * q.val = q.val; omega

/-- What point t writes back is block t of the last layer's rows of the four input arrays. -/
private theorem flushed_eq (c : Dev nD) (t : Fin cfg5.N) :
    (dat5 (F := Ideal) V c).flushed 4 t = ((cfg5.win 4).blk t).view.read (Elt Ideal)
      (Cert.Gcn.finalRows (V c main_v57) (V c main_v51) (V c main_v12) (V c main_v58)) := by
  show (cfg5.win 4).cut (grid5.coords t) ((dat5 (F := Ideal) V c).after 4 t) = _
  rw [after5_4]
  unfold out5_4
  rw [View.canon_unit_zero hz]
  simp only [View.ld_unit_zero (S := S5000x64) hz, View.ld_unit_zero (S := S5000x1) hz, View.ld_unit_zero (S := S1x64) hz]
  rw [pay_eq]
  funext j
  obtain ⟨p, q, rfl⟩ : ∃ (p : Fin 5000) (q : Fin 64), j = ix2 p q := ⟨j 0, j 1, eq_ix2 j⟩
  show Cert.Gcn.finalRows (n := 5000) (D := 64) (iblk5 V c 0 t) (iblk5 V c 1 t) (iblk5 V c 2 t) (iblk5 V c 3 t) (ix2 p q)
    = Cert.Gcn.finalRows (V c main_v57) (V c main_v51) (V c main_v12) (V c main_v58) (((cfg5.win 4).blk t).view.emb (ix2 p q))
  rw [emb_out t p q]
  exact finalRows_rows (rowOf t) _ _ _ _ _ _ _ _ (blk0_apply V c t) (blk1_apply V c t) (blk2_apply V c t) (blk3_apply V c t) p q

/-- An index of the array lies in point t's block iff each coordinate lies in the block's range on its axis. -/
private theorem mem_blk (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v59).slice (win5_4.rect t)).set ↔ _
  rw [View.set_slice_whole, Rect.mem_set_unit]
  exact Iff.rfl

/-- Every index of the array lies in the block of the point its row divided by 5000 names. -/
private theorem cover (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 10 := rfl
  obtain ⟨t, ht⟩ : ∃ t : Fin cfg5.N, t.val = (i 0).val / 5000 := ⟨⟨(i 0).val / 5000, by omega⟩, rfl⟩
  obtain ⟨-, -, -, -, -, -, -, -, e0, e1⟩ := idx_facts t
  refine ⟨t, flush5_4 t, ?_⟩
  rw [mem_blk]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 64 ≤ (i 1).val ∧ (i 1).val < win5_4.index t (1 : Fin 2) * 64 + 64
    omega

theorem arr5 (c : Dev nD) : (dat5 (F := Ideal) V c).arrAt 4 cfg5.N = Cert.Gcn.finalRows (V c main_v57) (V c main_v51) (V c main_v12) (V c main_v58) :=
  (dat5 (F := Ideal) V c).arrAt_eq_of_cover 4 _ (fun t _ => flushed_eq V c t) cover

end Cert.KernelIdeal.RegionValue

end
-- ==== Proof.KRegion2.lean ====
import proofs.«404923_j6158983102957_2_alg».proof.Proof.Gen.KernelIdeal.Frame
import proofs.«404923_j6158983102957_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's product, entry by entry -/

/-- The matrix product read at explicit coordinates: the sum over the inner axis of the products. -/
private theorem matProd_apply2 (x : Cert.Gcn.Mat 50000 256) (w : Cert.Gcn.Mat 256 256) (p : Fin 50000) (q : Fin 256) :
    Cert.Gcn.matProd x w (ix2 p q) = ∑ k : Fin 256, x (ix2 p k) * w (ix2 k q) := rfl

/-- The dot's left operand index keeps the output's row. -/
private theorem lhs2_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- Its column is the contraction index. -/
private theorem lhs2_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- The right operand's row is the contraction index. -/
private theorem rhs2_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- Its column is the output's column. -/
private theorem rhs2_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The body's payload at entry (p, q) of a block: the two shape casts are identities, and the product into the
    zero accumulator is the sum over the inner axis of the products of the loaded blocks' entries. -/
private theorem pay2_apply (x0 : Vec Ideal S5000x256 .bf16) (x1 : Vec Ideal S256x256 .bf16) (p : Fin 5000) (q : Fin 256) :
    k2_pay1 (F := Ideal) x0 x1 (ix2 p q) = ∑ k : Fin 256, x0 (ix2 p k) * x1 (ix2 k q) := by
  unfold k2_pay1
  rw [shapeCast_self, shapeCast_self]
  refine (Ideal.matmul_constant_zero_apply (φ₁ := .bf16) (φ₂ := .bf16) dot_S5000x256_S256x256_S5000x256_1_0_0_1_n_n none x0 x1 (ix2 p q)).trans ?_
  rw [← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhs2_0 _ _
    | ⟨1, _⟩ => exact (lhs2_1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhs2_0 _ _).trans hk
    | ⟨1, _⟩ => exact rhs2_1 _ _)
  rw [el, er]

variable (V : (c : Dev nD) → (b : Ref sig .tc) → Buf (Elt Ideal) ((c : Thread nD τ).loc b))

/-! ## The blocks against the arrays -/

private theorem hz2 : (![0, 0] : Fin 2 → Nat) = fun _ => 0 := funext fun a => by fin_cases a <;> rfl

/-- The printed index maps over the ten grid points: the row operand's block row is the output's, every other block
    index is zero, and the output's block row is at most nine. -/
private theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every block row of the output is some grid point's. -/
private theorem idx_onto2 : ∀ q0 : Fin 10, ∃ t : Fin cfg2.N, win2_2.index t = ![q0.val, 0] :=
  (by decide +kernel : ∀ q0 : Fin 10, ∃ t : Fin grid2.N, win2_2.index t = ![q0.val, 0])

/-- What grid point t writes back is block t of the matrix product of the two input arrays: entry (p, q) of the block
    is the sum over k of the row block's (p, k) times the weights' (k, q), and the row block's row p is the array's row
    5000 * (block row) + p. -/
private theorem flushed2_eq (c : Dev nD) (t : Fin cfg2.N) :
    (dat2 (F := Ideal) V c).flushed 2 t
      = ((cfg2.win 2).blk t).view.read (Elt Ideal) (Cert.Gcn.matProd (V c main_v39) (V c main_v40)) := by
  show (cfg2.win 2).cut (grid2.coords t) ((dat2 (F := Ideal) V c).after 2 t) = _
  rw [after2_2]
  unfold out2_2
  rw [View.canon_unit_zero hz2]
  simp only [View.ld_unit_zero (S := S5000x256) hz2, View.ld_unit_zero (S := S256x256) hz2]
  obtain ⟨e0, e1, e2, e3, e4, e5⟩ := idx_facts2 t
  funext j
  obtain ⟨p, q, rfl⟩ : ∃ (p : Fin 5000) (q : Fin 256), j = ix2 p q := ⟨j 0, j 1, eq_ix2 j⟩
  have hp : p.val < 5000 := p.isLt
  have hemb : ((cfg2.win 2).blk t).view.emb (ix2 p q)
      = ix2 (⟨win2_2.index t (0 : Fin 2) * 5000 + p.val, by omega⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 256 + 1 * q.val = q.val; omega
  show k2_pay1 (F := Ideal) (iblk2 V c 0 t) (iblk2 V c 1 t) (ix2 p q)
    = Cert.Gcn.matProd (V c main_v39) (V c main_v40) (((cfg2.win 2).blk t).view.emb (ix2 p q))
  rw [hemb, matProd_apply2]
  refine (pay2_apply _ _ p q).trans ?_
  refine Finset.sum_congr rfl fun k _ => ?_
  have h0 : iblk2 V c 0 t (ix2 p k)
      = V c main_v39 (ix2 (⟨win2_2.index t (0 : Fin 2) * 5000 + p.val, by omega⟩ : Fin 50000) k) := by
    show V c main_v39 (((cfg2.win 0).blk t).view.emb (ix2 p k)) = _
    refine congrArg _ ?_
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 256 + 1 * k.val = k.val; omega
  have h1 : iblk2 V c 1 t (ix2 k q) = V c main_v40 (ix2 k q) := by
    show V c main_v40 (((cfg2.win 1).blk t).view.emb (ix2 k q)) = _
    refine congrArg _ ?_
    funext a; apply Fin.ext
    match a with
    | ⟨0, _⟩ => show win2_1.index t (0 : Fin 2) * 256 + 1 * k.val = k.val; omega
    | ⟨1, _⟩ => show win2_1.index t (1 : Fin 2) * 256 + 1 * q.val = q.val; omega
  rw [h0, h1]

/-- An index of the output array is in point t's block iff each coordinate is in the block's range on its axis. -/
private theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v41).slice (win2_2.rect t)).set ↔ _
  rw [View.set_slice_whole, Rect.mem_set_unit]
  exact Iff.rfl

/-- The ten blocks tile the array: row r lies in the block of the point whose block row is r / 5000. -/
private theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- The whole output array of the second product kernel is the matrix product of its two input arrays: every grid point
    writes its block of the product, and the blocks tile the array. -/
theorem arr2 (c : Dev nD) : (dat2 (F := Ideal) V c).arrAt 2 cfg2.N = Cert.Gcn.matProd (V c main_v39) (V c main_v40) :=
  (dat2 (F := Ideal) V c).arrAt_eq_of_cover 2 (Cert.Gcn.matProd (V c main_v39) (V c main_v40))
    (fun t _ => flushed2_eq V c t) cover2

end Cert.KernelIdeal.RegionValue

end
-- ==== Proof.KRegion3.lean ====
import proofs.«404923_j6158983102957_2_alg».proof.Proof.Gen.KernelIdeal.Frame
import proofs.«404923_j6158983102957_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The column broadcast along the rows: entry (p, q) is the column's entry (p, 0). -/
private theorem bcast_col_apply (x : FVec Ideal S5000x1 .f32) (p : Fin 5000) (q : Fin 256) :
    broadcastTo S5000x256 x broadcasts_S5000x1_S5000x256 (ix2 p q) = x (ix2 p 0) := by
  refine broadcastTo_apply x _ _ _ (fun a => ?_)
  match a with
  | ⟨0, _⟩ => rfl
  | ⟨1, _⟩ => rfl

/-- The row broadcast down the columns: entry (p, q) is the row's entry (0, q). -/
private theorem bcast_row_apply (x : FVec Ideal S1x256 .f32) (p : Fin 5000) (q : Fin 256) :
    broadcastTo S5000x256 x broadcasts_S1x256_S5000x256 (ix2 p q) = x (ix2 0 q) := by
  refine broadcastTo_apply x _ _ _ (fun a => ?_)
  match a with
  | ⟨0, _⟩ => rfl
  | ⟨1, _⟩ => rfl

/-- The body's payload entry by entry: max(x0 + x1 * x2[p] + x3[q], 0); the shape casts are to the same shape, the
    pointwise operations and the narrowing read through at the extended reals. -/
private theorem pay3_apply (x0 x1 : Vec Ideal S5000x256 .f32) (x2 : Vec Ideal S5000x1 .f32) (x3 : Vec Ideal S1x256 .f32)
    (p : Fin 5000) (q : Fin 256) :
    k3_pay1 (F := Ideal) x0 x1 x2 x3 (ix2 p q)
      = max (x0 (ix2 p q) + x1 (ix2 p q) * x2 (ix2 p 0) + x3 (ix2 0 q)) (Ideal.ofBits .f32 0x00000000#32) := by
  unfold k3_pay1
  simp only [shapeCast_self]
  show max (x0 (ix2 p q) + x1 (ix2 p q) * broadcastTo S5000x256 x2 broadcasts_S5000x1_S5000x256 (ix2 p q)
      + broadcastTo S5000x256 x3 broadcasts_S1x256_S5000x256 (ix2 p q)) (Ideal.ofBits .f32 0x00000000#32) = _
  rw [bcast_col_apply, bcast_row_apply]

variable (V : (c : Dev nD) → (b : Ref sig .tc) → Buf (Elt Ideal) ((c : Thread nD τ).loc b))

private theorem hz3 : (![0, 0] : Fin 2 → Nat) = fun _ => 0 := funext fun a => by fin_cases a <;> rfl

/-- The printed index maps over the ten grid points: the three row-blocked inputs sit at the output's block row, column
    block 0; the bias row is the one block (0, 0); the output's block row is at most 9. -/
private theorem idx_facts3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) ≤ 9 ∧ win3_4.index t (1 : Fin 2) = 0 :=
  (by decide +kernel : ∀ t : Fin grid3.N, _)

/-- Every block row of the output is some grid point's. -/
private theorem idx_onto3 : ∀ q0 : Fin 10, ∃ t : Fin cfg3.N, win3_4.index t (0 : Fin 2) = q0.val :=
  (by decide +kernel : ∀ q0 : Fin 10, ∃ t : Fin grid3.N, win3_4.index t (0 : Fin 2) = q0.val)

/-- Window 0's block at point t, entry (p, q), is the array's entry at (block row × 5000 + p, block column × 256 + q). -/
private theorem blk3_0_apply (c : Dev nD) (t : Fin cfg3.N) (p : Fin 5000) (q : Fin 256) (k : S50000x256.Idx)
    (hk0 : (k 0).val = win3_0.index t (0 : Fin 2) * 5000 + p.val) (hk1 : (k 1).val = win3_0.index t (1 : Fin 2) * 256 + q.val) :
    (iblk3 (F := Ideal) V c 0 t : Vec Ideal S5000x256 .f32) (ix2 p q) = (V c main_v47 : S50000x256.Idx → Elt Ideal .f32) k := by
  unfold iblk3
  show (V c main_v47 : S50000x256.Idx → Elt Ideal .f32) (((cfg3.win 0).blk t).view.emb (ix2 p q)) = _
  refine congrArg (V c main_v47 : S50000x256.Idx → Elt Ideal .f32) (funext fun a => Fin.ext ?_)
  match a with
  | ⟨0, _⟩ => show win3_0.index t (0 : Fin 2) * 5000 + 1 * p.val = (k 0).val; omega
  | ⟨1, _⟩ => show win3_0.index t (1 : Fin 2) * 256 + 1 * q.val = (k 1).val; omega

private theorem blk3_1_apply (c : Dev nD) (t : Fin cfg3.N) (p : Fin 5000) (q : Fin 256) (k : S50000x256.Idx)
    (hk0 : (k 0).val = win3_1.index t (0 : Fin 2) * 5000 + p.val) (hk1 : (k 1).val = win3_1.index t (1 : Fin 2) * 256 + q.val) :
    (iblk3 (F := Ideal) V c 1 t : Vec Ideal S5000x256 .f32) (ix2 p q) = (V c main_v41 : S50000x256.Idx → Elt Ideal .f32) k := by
  unfold iblk3
  show (V c main_v41 : S50000x256.Idx → Elt Ideal .f32) (((cfg3.win 1).blk t).view.emb (ix2 p q)) = _
  refine congrArg (V c main_v41 : S50000x256.Idx → Elt Ideal .f32) (funext fun a => Fin.ext ?_)
  match a with
  | ⟨0, _⟩ => show win3_1.index t (0 : Fin 2) * 5000 + 1 * p.val = (k 0).val; omega
  | ⟨1, _⟩ => show win3_1.index t (1 : Fin 2) * 256 + 1 * q.val = (k 1).val; omega

private theorem blk3_2_apply (c : Dev nD) (t : Fin cfg3.N) (p : Fin 5000) (q : Fin 1) (k : S50000x1.Idx)
    (hk0 : (k 0).val = win3_2.index t (0 : Fin 2) * 5000 + p.val) (hk1 : (k 1).val = win3_2.index t (1 : Fin 2) * 1 + q.val) :
    (iblk3 (F := Ideal) V c 2 t : Vec Ideal S5000x1 .f32) (ix2 p q) = (V c main_v12 : S50000x1.Idx → Elt Ideal .f32) k := by
  unfold iblk3
  show (V c main_v12 : S50000x1.Idx → Elt Ideal .f32) (((cfg3.win 2).blk t).view.emb (ix2 p q)) = _
  refine congrArg (V c main_v12 : S50000x1.Idx → Elt Ideal .f32) (funext fun a => Fin.ext ?_)
  match a with
  | ⟨0, _⟩ => show win3_2.index t (0 : Fin 2) * 5000 + 1 * p.val = (k 0).val; omega
  | ⟨1, _⟩ => show win3_2.index t (1 : Fin 2) * 1 + 1 * q.val = (k 1).val; omega

private theorem blk3_3_apply (c : Dev nD) (t : Fin cfg3.N) (p : Fin 1) (q : Fin 256) (k : S1x256.Idx)
    (hk0 : (k 0).val = win3_3.index t (0 : Fin 2) * 1 + p.val) (hk1 : (k 1).val = win3_3.index t (1 : Fin 2) * 256 + q.val) :
    (iblk3 (F := Ideal) V c 3 t : Vec Ideal S1x256 .f32) (ix2 p q) = (V c main_v48 : S1x256.Idx → Elt Ideal .f32) k := by
  unfold iblk3
  show (V c main_v48 : S1x256.Idx → Elt Ideal .f32) (((cfg3.win 3).blk t).view.emb (ix2 p q)) = _
  refine congrArg (V c main_v48 : S1x256.Idx → Elt Ideal .f32) (funext fun a => Fin.ext ?_)
  match a with
  | ⟨0, _⟩ => show win3_3.index t (0 : Fin 2) * 1 + 1 * p.val = (k 0).val; omega
  | ⟨1, _⟩ => show win3_3.index t (1 : Fin 2) * 256 + 1 * q.val = (k 1).val; omega

/-- What grid point t writes back is block t of relu(layerSum) of the four input arrays: the one store through the whole
    staging buffer leaves the payload, the payload is read entry by entry, and each loaded block is its array at block
    row × 5000 + the row inside the block (the bias row at its one block). -/
private theorem flushed3_eq (c : Dev nD) (t : Fin cfg3.N) :
    (dat3 (F := Ideal) V c).flushed 4 t = ((cfg3.win 4).blk t).view.read (Elt Ideal)
      (Cert.Gcn.relu (Cert.Gcn.layerSum (V c main_v47) (V c main_v41) (V c main_v12) (V c main_v48))) := by
  show (cfg3.win 4).cut (grid3.coords t) ((dat3 (F := Ideal) V c).after 4 t) = _
  rw [after3_4]
  unfold out3_4
  rw [View.canon_unit_zero hz3]
  simp only [View.ld_unit_zero (S := S5000x256) hz3, View.ld_unit_zero (S := S5000x1) hz3, View.ld_unit_zero (S := S1x256) hz3]
  funext j
  obtain ⟨p, q, rfl⟩ : ∃ (p : Fin 5000) (q : Fin 256), j = ix2 p q := ⟨j 0, j 1, eq_ix2 j⟩
  obtain ⟨e00, e01, e10, e11, e20, e21, e30, e31, e4b, e41⟩ := idx_facts3 t
  refine (pay3_apply _ _ _ _ p q).trans ?_
  show _ = Cert.Gcn.relu (Cert.Gcn.layerSum (V c main_v47) (V c main_v41) (V c main_v12) (V c main_v48)) (((cfg3.win 4).blk t).view.emb (ix2 p q))
  obtain ⟨i, hi⟩ : ∃ i : S50000x256.Idx, ((cfg3.win 4).blk t).view.emb (ix2 p q) = i := ⟨_, rfl⟩
  have h0 : (i 0).val = win3_4.index t (0 : Fin 2) * 5000 + 1 * p.val := by rw [← hi]; rfl
  have h1 : (i 1).val = win3_4.index t (1 : Fin 2) * 256 + 1 * q.val := by rw [← hi]; rfl
  rw [hi]
  have a0 := blk3_0_apply V c t p q i (by omega) (by omega)
  have a1 := blk3_1_apply V c t p q i (by omega) (by omega)
  have a2 := blk3_2_apply V c t p 0 (ix2 ⟨(i 0).val, (i 0).isLt⟩ 0)
    (by show (i 0).val = _; omega) (by show (0 : Nat) = win3_2.index t (1 : Fin 2) * 1 + 0; omega)
  have a3 := blk3_3_apply V c t 0 q (ix2 0 ⟨(i 1).val, (i 1).isLt⟩)
    (by show (0 : Nat) = win3_3.index t (0 : Fin 2) * 1 + 0; omega) (by show (i 1).val = _; omega)
  rw [a0, a1, a2, a3]
  rfl

/-- An index of the output array lies in grid point t's block iff each coordinate lies in the block's range on its axis. -/
private theorem mem_blk3 (t : Fin cfg3.N) (i : S50000x256.Idx) :
    i ∈ ((cfg3.win 4).blk t).view.set ↔ ∀ a : Fin 2, win3_4.index t a * S5000x256.size a ≤ (i a).val ∧ (i a).val < win3_4.index t a * S5000x256.size a + S5000x256.size a := by
  show i ∈ ((View.whole main_v49).slice (win3_4.rect t)).set ↔ _
  rw [View.set_slice_whole, Rect.mem_set_unit]
  exact Iff.rfl

/-- The ten row blocks tile the output array (row r lies in block r / 5000), each written back once with its block of
    relu(layerSum): so the array ends holding relu(layerSum) of the four input arrays. -/
theorem arr3 (c : Dev nD) : (dat3 (F := Ideal) V c).arrAt 4 cfg3.N = Cert.Gcn.relu (Cert.Gcn.layerSum (V c main_v47) (V c main_v41) (V c main_v12) (V c main_v48)) := by
  refine (dat3 (F := Ideal) V c).arrAt_eq_of_cover 4 _ (fun t _ => flushed3_eq V c t) (fun i => ?_)
  have hi0 : (i 0).val < 50000 := (i 0).isLt
  have hi1 : (i 1).val < 256 := (i 1).isLt
  obtain ⟨t, ht⟩ := idx_onto3 ⟨(i 0).val / 5000, by omega⟩
  have q0 : win3_4.index t (0 : Fin 2) = (i 0).val / 5000 := ht
  obtain ⟨-, -, -, -, -, -, -, -, -, e41⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 256 ≤ (i 1).val ∧ (i 1).val < win3_4.index t (1 : Fin 2) * 256 + 256; omega

end Cert.KernelIdeal.RegionValue

end
-- ==== Proof.KRegion0.lean ====
import proofs.«404923_j6158983102957_2_alg».proof.Proof.Gen.KernelIdeal.Frame
import proofs.«404923_j6158983102957_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's product, entry by entry -/

/-- The matrix product read at explicit coordinates: the sum over the inner axis of the products. -/
private theorem matProd_apply0 (x : Cert.Gcn.Mat 50000 512) (w : Cert.Gcn.Mat 512 256) (p : Fin 50000) (q : Fin 256) :
    Cert.Gcn.matProd x w (ix2 p q) = ∑ k : Fin 512, x (ix2 p k) * w (ix2 k q) := rfl

/-- The dot's left operand index keeps the output's row. -/
private theorem lhs0_0 (i : S5000x256.Idx) (q : dot_S5000x512_S512x256_S5000x256_1_0_0_1_n_n.contr.Idx) :
    (dot_S5000x512_S512x256_S5000x256_1_0_0_1_n_n.lhsIdx i q 0).val = (i 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
/-- Its column is the contraction index. -/
private theorem lhs0_1 (i : S5000x256.Idx) (q : dot_S5000x512_S512x256_S5000x256_1_0_0_1_n_n.contr.Idx) :
    (dot_S5000x512_S512x256_S5000x256_1_0_0_1_n_n.lhsIdx i q 1).val = (q ⟨0, by decide⟩).val :=
  dot_S5000x512_S512x256_S5000x256_1_0_0_1_n_n.lhsIdx_val_of_single rfl i q
/-- The right operand's row is the contraction index. -/
private theorem rhs0_0 (i : S5000x256.Idx) (q : dot_S5000x512_S512x256_S5000x256_1_0_0_1_n_n.contr.Idx) :
    (dot_S5000x512_S512x256_S5000x256_1_0_0_1_n_n.rhsIdx i q 0).val = (q ⟨0, by decide⟩).val :=
  dot_S5000x512_S512x256_S5000x256_1_0_0_1_n_n.rhsIdx_val_of_single rfl i q
/-- Its column is the output's column. -/
private theorem rhs0_1 (i : S5000x256.Idx) (q : dot_S5000x512_S512x256_S5000x256_1_0_0_1_n_n.contr.Idx) :
    (dot_S5000x512_S512x256_S5000x256_1_0_0_1_n_n.rhsIdx i q 1).val = (i 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- The body's payload at entry (p, q) of a block: the two shape casts are identities, and the product into the
    zero accumulator is the sum over the inner axis of the products of the loaded blocks' entries. -/
private theorem pay0_apply (x0 : Vec Ideal S5000x512 .bf16) (x1 : Vec Ideal S512x256 .bf16) (p : Fin 5000) (q : Fin 256) :
    k0_pay1 (F := Ideal) x0 x1 (ix2 p q) = ∑ k : Fin 512, x0 (ix2 p k) * x1 (ix2 k q) := by
  unfold k0_pay1
  rw [shapeCast_self, shapeCast_self]
  refine (Ideal.matmul_constant_zero_apply (φ₁ := .bf16) (φ₂ := .bf16) dot_S5000x512_S512x256_S5000x256_1_0_0_1_n_n none x0 x1 (ix2 p q)).trans ?_
  rw [← Equiv.sum_comp (ValueIdx.contrEquiv1 dot_S5000x512_S512x256_S5000x256_1_0_0_1_n_n 512 rfl rfl).symm]
  refine Finset.sum_congr rfl fun k _ => ?_
  have hk := ValueIdx.contrEquiv1_symm_val dot_S5000x512_S512x256_S5000x256_1_0_0_1_n_n 512 rfl rfl k
  have el : dot_S5000x512_S512x256_S5000x256_1_0_0_1_n_n.lhsIdx (ix2 p q) ((ValueIdx.contrEquiv1 dot_S5000x512_S512x256_S5000x256_1_0_0_1_n_n 512 rfl rfl).symm k) = ix2 p k := funext fun a => Fin.ext (by
    match a with
    | ⟨0, _⟩ => exact lhs0_0 _ _
    | ⟨1, _⟩ => exact (lhs0_1 _ _).trans hk)
  have er : dot_S5000x512_S512x256_S5000x256_1_0_0_1_n_n.rhsIdx (ix2 p q) ((ValueIdx.contrEquiv1 dot_S5000x512_S512x256_S5000x256_1_0_0_1_n_n 512 rfl rfl).symm k) = ix2 k q := funext fun a => Fin.ext (by
    match a with
    | ⟨0, _⟩ => exact (rhs0_0 _ _).trans hk
    | ⟨1, _⟩ => exact rhs0_1 _ _)
  rw [el, er]

variable (V : (c : Dev nD) → (b : Ref sig .tc) → Buf (Elt Ideal) ((c : Thread nD τ).loc b))

/-! ## The blocks against the arrays -/

private theorem hz0 : (![0, 0] : Fin 2 → Nat) = fun _ => 0 := funext fun a => by fin_cases a <;> rfl

/-- The printed index maps over the ten grid points: the row operand's block row is the output's, every other block
    index is zero, and the output's block row is at most nine. -/
private theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block row of the output is some grid point's. -/
private theorem idx_onto0 : ∀ q0 : Fin 10, ∃ t : Fin cfg0.N, win0_2.index t = ![q0.val, 0] :=
  (by decide +kernel : ∀ q0 : Fin 10, ∃ t : Fin grid0.N, win0_2.index t = ![q0.val, 0])

/-- What grid point t writes back is block t of the matrix product of the two input arrays: entry (p, q) of the block
    is the sum over k of the row block's (p, k) times the weights' (k, q), and the row block's row p is the array's row
    5000 * (block row) + p. -/
private theorem flushed0_eq (c : Dev nD) (t : Fin cfg0.N) :
    (dat0 (F := Ideal) V c).flushed 2 t
      = ((cfg0.win 2).blk t).view.read (Elt Ideal) (Cert.Gcn.matProd (V c main_v29) (V c main_v30)) := by
  show (cfg0.win 2).cut (grid0.coords t) ((dat0 (F := Ideal) V c).after 2 t) = _
  rw [after0_2]
  unfold out0_2
  rw [View.canon_unit_zero hz0]
  simp only [View.ld_unit_zero (S := S5000x512) hz0, View.ld_unit_zero (S := S512x256) hz0]
  obtain ⟨e0, e1, e2, e3, e4, e5⟩ := idx_facts0 t
  funext j
  obtain ⟨p, q, rfl⟩ : ∃ (p : Fin 5000) (q : Fin 256), j = ix2 p q := ⟨j 0, j 1, eq_ix2 j⟩
  have hp : p.val < 5000 := p.isLt
  have hemb : ((cfg0.win 2).blk t).view.emb (ix2 p q)
      = ix2 (⟨win0_2.index t (0 : Fin 2) * 5000 + p.val, by omega⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 256 + 1 * q.val = q.val; omega
  show k0_pay1 (F := Ideal) (iblk0 V c 0 t) (iblk0 V c 1 t) (ix2 p q)
    = Cert.Gcn.matProd (V c main_v29) (V c main_v30) (((cfg0.win 2).blk t).view.emb (ix2 p q))
  rw [hemb, matProd_apply0]
  refine (pay0_apply _ _ p q).trans ?_
  refine Finset.sum_congr rfl fun k _ => ?_
  have h0 : iblk0 V c 0 t (ix2 p k)
      = V c main_v29 (ix2 (⟨win0_2.index t (0 : Fin 2) * 5000 + p.val, by omega⟩ : Fin 50000) k) := by
    show V c main_v29 (((cfg0.win 0).blk t).view.emb (ix2 p k)) = _
    refine congrArg _ ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 512 + 1 * k.val = k.val; omega
  have h1 : iblk0 V c 1 t (ix2 k q) = V c main_v30 (ix2 k q) := by
    show V c main_v30 (((cfg0.win 1).blk t).view.emb (ix2 k q)) = _
    refine congrArg _ ?_
    funext a; apply Fin.ext
    match a with
    | ⟨0, _⟩ => show win0_1.index t (0 : Fin 2) * 512 + 1 * k.val = k.val; omega
    | ⟨1, _⟩ => show win0_1.index t (1 : Fin 2) * 256 + 1 * q.val = q.val; omega
  rw [h0, h1]

/-- An index of the output array is in point t's block iff each coordinate is in the block's range on its axis. -/
private theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v31).slice (win0_2.rect t)).set ↔ _
  rw [View.set_slice_whole, Rect.mem_set_unit]
  exact Iff.rfl

/-- The ten blocks tile the array: row r lies in the block of the point whose block row is r / 5000. -/
private theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The whole output array of the first product kernel is the matrix product of its two input arrays: every grid point
    writes its block of the product, and the blocks tile the array. -/
theorem arr0 (c : Dev nD) : (dat0 (F := Ideal) V c).arrAt 2 cfg0.N = Cert.Gcn.matProd (V c main_v29) (V c main_v30) :=
  (dat0 (F := Ideal) V c).arrAt_eq_of_cover 2 (Cert.Gcn.matProd (V c main_v29) (V c main_v30))
    (fun t _ => flushed0_eq V c t) cover0

end Cert.KernelIdeal.RegionValue

end
-- ==== Proof.KRegion1.lean ====
import proofs.«404923_j6158983102957_2_alg».proof.Proof.Gen.KernelIdeal.Frame
import proofs.«404923_j6158983102957_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The column broadcast along the rows: entry (p, q) is the column's entry (p, 0). -/
private theorem bcast_col_apply (x : FVec Ideal S5000x1 .f32) (p : Fin 5000) (q : Fin 256) :
    broadcastTo S5000x256 x broadcasts_S5000x1_S5000x256 (ix2 p q) = x (ix2 p 0) := by
  refine broadcastTo_apply x _ _ _ (fun a => ?_)
  match a with
  | ⟨0, _⟩ => rfl
  | ⟨1, _⟩ => rfl

/-- The row broadcast down the columns: entry (p, q) is the row's entry (0, q). -/
private theorem bcast_row_apply (x : FVec Ideal S1x256 .f32) (p : Fin 5000) (q : Fin 256) :
    broadcastTo S5000x256 x broadcasts_S1x256_S5000x256 (ix2 p q) = x (ix2 0 q) := by
  refine broadcastTo_apply x _ _ _ (fun a => ?_)
  match a with
  | ⟨0, _⟩ => rfl
  | ⟨1, _⟩ => rfl

/-- The body's payload entry by entry: max(x0 + x1 * x2[p] + x3[q], 0); the shape casts are to the same shape, the
    pointwise operations and the narrowing read through at the extended reals. -/
private theorem pay1_apply (x0 x1 : Vec Ideal S5000x256 .f32) (x2 : Vec Ideal S5000x1 .f32) (x3 : Vec Ideal S1x256 .f32)
    (p : Fin 5000) (q : Fin 256) :
    k1_pay1 (F := Ideal) x0 x1 x2 x3 (ix2 p q)
      = max (x0 (ix2 p q) + x1 (ix2 p q) * x2 (ix2 p 0) + x3 (ix2 0 q)) (Ideal.ofBits .f32 0x00000000#32) := by
  unfold k1_pay1
  simp only [shapeCast_self]
  show max (x0 (ix2 p q) + x1 (ix2 p q) * broadcastTo S5000x256 x2 broadcasts_S5000x1_S5000x256 (ix2 p q)
      + broadcastTo S5000x256 x3 broadcasts_S1x256_S5000x256 (ix2 p q)) (Ideal.ofBits .f32 0x00000000#32) = _
  rw [bcast_col_apply, bcast_row_apply]

variable (V : (c : Dev nD) → (b : Ref sig .tc) → Buf (Elt Ideal) ((c : Thread nD τ).loc b))

private theorem hz1 : (![0, 0] : Fin 2 → Nat) = fun _ => 0 := funext fun a => by fin_cases a <;> rfl

/-- The printed index maps over the ten grid points: the three row-blocked inputs sit at the output's block row, column
    block 0; the bias row is the one block (0, 0); the output's block row is at most 9. -/
private theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) ≤ 9 ∧ win1_4.index t (1 : Fin 2) = 0 :=
  (by decide +kernel : ∀ t : Fin grid1.N, _)

/-- Every block row of the output is some grid point's. -/
private theorem idx_onto1 : ∀ q0 : Fin 10, ∃ t : Fin cfg1.N, win1_4.index t (0 : Fin 2) = q0.val :=
  (by decide +kernel : ∀ q0 : Fin 10, ∃ t : Fin grid1.N, win1_4.index t (0 : Fin 2) = q0.val)

/-- Window 0's block at point t, entry (p, q), is the array's entry at (block row × 5000 + p, block column × 256 + q). -/
private theorem blk1_0_apply (c : Dev nD) (t : Fin cfg1.N) (p : Fin 5000) (q : Fin 256) (k : S50000x256.Idx)
    (hk0 : (k 0).val = win1_0.index t (0 : Fin 2) * 5000 + p.val) (hk1 : (k 1).val = win1_0.index t (1 : Fin 2) * 256 + q.val) :
    (iblk1 (F := Ideal) V c 0 t : Vec Ideal S5000x256 .f32) (ix2 p q) = (V c main_v37 : S50000x256.Idx → Elt Ideal .f32) k := by
  unfold iblk1
  show (V c main_v37 : S50000x256.Idx → Elt Ideal .f32) (((cfg1.win 0).blk t).view.emb (ix2 p q)) = _
  refine congrArg (V c main_v37 : S50000x256.Idx → Elt Ideal .f32) (funext fun a => Fin.ext ?_)
  match a with
  | ⟨0, _⟩ => show win1_0.index t (0 : Fin 2) * 5000 + 1 * p.val = (k 0).val; omega
  | ⟨1, _⟩ => show win1_0.index t (1 : Fin 2) * 256 + 1 * q.val = (k 1).val; omega

private theorem blk1_1_apply (c : Dev nD) (t : Fin cfg1.N) (p : Fin 5000) (q : Fin 256) (k : S50000x256.Idx)
    (hk0 : (k 0).val = win1_1.index t (0 : Fin 2) * 5000 + p.val) (hk1 : (k 1).val = win1_1.index t (1 : Fin 2) * 256 + q.val) :
    (iblk1 (F := Ideal) V c 1 t : Vec Ideal S5000x256 .f32) (ix2 p q) = (V c main_v31 : S50000x256.Idx → Elt Ideal .f32) k := by
  unfold iblk1
  show (V c main_v31 : S50000x256.Idx → Elt Ideal .f32) (((cfg1.win 1).blk t).view.emb (ix2 p q)) = _
  refine congrArg (V c main_v31 : S50000x256.Idx → Elt Ideal .f32) (funext fun a => Fin.ext ?_)
  match a with
  | ⟨0, _⟩ => show win1_1.index t (0 : Fin 2) * 5000 + 1 * p.val = (k 0).val; omega
  | ⟨1, _⟩ => show win1_1.index t (1 : Fin 2) * 256 + 1 * q.val = (k 1).val; omega

private theorem blk1_2_apply (c : Dev nD) (t : Fin cfg1.N) (p : Fin 5000) (q : Fin 1) (k : S50000x1.Idx)
    (hk0 : (k 0).val = win1_2.index t (0 : Fin 2) * 5000 + p.val) (hk1 : (k 1).val = win1_2.index t (1 : Fin 2) * 1 + q.val) :
    (iblk1 (F := Ideal) V c 2 t : Vec Ideal S5000x1 .f32) (ix2 p q) = (V c main_v12 : S50000x1.Idx → Elt Ideal .f32) k := by
  unfold iblk1
  show (V c main_v12 : S50000x1.Idx → Elt Ideal .f32) (((cfg1.win 2).blk t).view.emb (ix2 p q)) = _
  refine congrArg (V c main_v12 : S50000x1.Idx → Elt Ideal .f32) (funext fun a => Fin.ext ?_)
  match a with
  | ⟨0, _⟩ => show win1_2.index t (0 : Fin 2) * 5000 + 1 * p.val = (k 0).val; omega
  | ⟨1, _⟩ => show win1_2.index t (1 : Fin 2) * 1 + 1 * q.val = (k 1).val; omega

private theorem blk1_3_apply (c : Dev nD) (t : Fin cfg1.N) (p : Fin 1) (q : Fin 256) (k : S1x256.Idx)
    (hk0 : (k 0).val = win1_3.index t (0 : Fin 2) * 1 + p.val) (hk1 : (k 1).val = win1_3.index t (1 : Fin 2) * 256 + q.val) :
    (iblk1 (F := Ideal) V c 3 t : Vec Ideal S1x256 .f32) (ix2 p q) = (V c main_v38 : S1x256.Idx → Elt Ideal .f32) k := by
  unfold iblk1
  show (V c main_v38 : S1x256.Idx → Elt Ideal .f32) (((cfg1.win 3).blk t).view.emb (ix2 p q)) = _
  refine congrArg (V c main_v38 : S1x256.Idx → Elt Ideal .f32) (funext fun a => Fin.ext ?_)
  match a with
  | ⟨0, _⟩ => show win1_3.index t (0 : Fin 2) * 1 + 1 * p.val = (k 0).val; omega
  | ⟨1, _⟩ => show win1_3.index t (1 : Fin 2) * 256 + 1 * q.val = (k 1).val; omega

/-- What grid point t writes back is block t of relu(layerSum) of the four input arrays: the one store through the whole
    staging buffer leaves the payload, the payload is read entry by entry, and each loaded block is its array at block
    row × 5000 + the row inside the block (the bias row at its one block). -/
private theorem flushed1_eq (c : Dev nD) (t : Fin cfg1.N) :
    (dat1 (F := Ideal) V c).flushed 4 t = ((cfg1.win 4).blk t).view.read (Elt Ideal)
      (Cert.Gcn.relu (Cert.Gcn.layerSum (V c main_v37) (V c main_v31) (V c main_v12) (V c main_v38))) := by
  show (cfg1.win 4).cut (grid1.coords t) ((dat1 (F := Ideal) V c).after 4 t) = _
  rw [after1_4]
  unfold out1_4
  rw [View.canon_unit_zero hz1]
  simp only [View.ld_unit_zero (S := S5000x256) hz1, View.ld_unit_zero (S := S5000x1) hz1, View.ld_unit_zero (S := S1x256) hz1]
  funext j
  obtain ⟨p, q, rfl⟩ : ∃ (p : Fin 5000) (q : Fin 256), j = ix2 p q := ⟨j 0, j 1, eq_ix2 j⟩
  obtain ⟨e00, e01, e10, e11, e20, e21, e30, e31, e4b, e41⟩ := idx_facts1 t
  refine (pay1_apply _ _ _ _ p q).trans ?_
  show _ = Cert.Gcn.relu (Cert.Gcn.layerSum (V c main_v37) (V c main_v31) (V c main_v12) (V c main_v38)) (((cfg1.win 4).blk t).view.emb (ix2 p q))
  obtain ⟨i, hi⟩ : ∃ i : S50000x256.Idx, ((cfg1.win 4).blk t).view.emb (ix2 p q) = i := ⟨_, rfl⟩
  have h0 : (i 0).val = win1_4.index t (0 : Fin 2) * 5000 + 1 * p.val := by rw [← hi]; rfl
  have h1 : (i 1).val = win1_4.index t (1 : Fin 2) * 256 + 1 * q.val := by rw [← hi]; rfl
  rw [hi]
  have a0 := blk1_0_apply V c t p q i (by omega) (by omega)
  have a1 := blk1_1_apply V c t p q i (by omega) (by omega)
  have a2 := blk1_2_apply V c t p 0 (ix2 ⟨(i 0).val, (i 0).isLt⟩ 0)
    (by show (i 0).val = _; omega) (by show (0 : Nat) = win1_2.index t (1 : Fin 2) * 1 + 0; omega)
  have a3 := blk1_3_apply V c t 0 q (ix2 0 ⟨(i 1).val, (i 1).isLt⟩)
    (by show (0 : Nat) = win1_3.index t (0 : Fin 2) * 1 + 0; omega) (by show (i 1).val = _; omega)
  rw [a0, a1, a2, a3]
  rfl

/-- An index of the output array lies in grid point t's block iff each coordinate lies in the block's range on its axis. -/
private theorem mem_blk1 (t : Fin cfg1.N) (i : S50000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v39).slice (win1_4.rect t)).set ↔ _
  rw [View.set_slice_whole, Rect.mem_set_unit]
  exact Iff.rfl

/-- The ten row blocks tile the output array (row r lies in block r / 5000), each written back once with its block of
    relu(layerSum): so the array ends holding relu(layerSum) of the four input arrays. -/
theorem arr1 (c : Dev nD) : (dat1 (F := Ideal) V c).arrAt 4 cfg1.N = Cert.Gcn.relu (Cert.Gcn.layerSum (V c main_v37) (V c main_v31) (V c main_v12) (V c main_v38)) := by
  refine (dat1 (F := Ideal) V c).arrAt_eq_of_cover 4 _ (fun t _ => flushed1_eq V c t) (fun i => ?_)
  have hi0 : (i 0).val < 50000 := (i 0).isLt
  have hi1 : (i 1).val < 256 := (i 1).isLt
  obtain ⟨t, ht⟩ := idx_onto1 ⟨(i 0).val / 5000, by omega⟩
  have q0 : win1_4.index t (0 : Fin 2) = (i 0).val / 5000 := ht
  obtain ⟨-, -, -, -, -, -, -, -, -, e41⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 256 ≤ (i 1).val ∧ (i 1).val < win1_4.index t (1 : Fin 2) * 256 + 256; omega

end Cert.KernelIdeal.RegionValue

end
-- ==== Proof.KLayer1.lean ====
import proofs.«404923_j6158983102957_2_alg».proof.Proof.Gen.KernelIdeal.Frame
import proofs.«404923_j6158983102957_2_alg».proof.Proof.Spec
import proofs.«404923_j6158983102957_2_alg».proof.Proof.Take
import proofs.«404923_j6158983102957_2_alg».proof.Proof.KPlumb
import proofs.«404923_j6158983102957_2_alg».proof.Proof.KRegion0
import proofs.«404923_j6158983102957_2_alg».proof.Proof.KRegion1
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.ChainValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! Typed references of an inlined function's operations: written at the buffer's type and read back at the value's,
    contents are unchanged. -/

private theorem ofBuf_toBuf {T : BufTy} (x : StableHlo.TRef sig T) (v : T.Contents (Elt Ideal)) : x.ofBuf (x.toBuf v) = v := by
  obtain ⟨r, rfl, h2, h3⟩ := x
  rfl

private theorem ofBuf_v1 (p1 p2 p3) (X : (main_v1 : Ref sig .tc).ty.Contents (Elt Ideal)) :
    (StableHlo.TRef.of (T := ⟨S800000, .i32⟩) main_v1 p1 p2 p3).ofBuf X = X := rfl
private theorem ofBuf_v31 (p1 p2 p3) (X : (main_v31 : Ref sig .tc).ty.Contents (Elt Ideal)) :
    (StableHlo.TRef.of (T := ⟨S50000x256, .f32⟩) main_v31 p1 p2 p3).ofBuf X = X := rfl
private theorem toBuf_v32 (p1 p2 p3) (X : (⟨S800000x256, .f32⟩ : BufTy).Contents (Elt Ideal)) :
    (StableHlo.TRef.of (T := ⟨S800000x256, .f32⟩) main_v32 p1 p2 p3).toBuf X = X := rfl

/-- After the first product region its output array is x · W1. -/
theorem v31_W2 (c : Dev nD) : (W2 m ρ c (Proc.devRef .tc main_v31) : FVec Ideal S50000x256 .f32) = Cert.Gcn.matProd (arg0 m c) (arg2 m c) := by
  rw [← w1_x m ρ c, ← w1_w m ρ c]
  exact (W2_arr m ρ c 2).trans (Cert.KernelIdeal.RegionValue.arr0 (V1 m ρ) c)

/-- The host stretch before the first combine writes no entry of the product's array: it is still x · W1. -/
theorem v31_W4 (c : Dev nD) : (W4 m ρ c (Proc.devRef .tc main_v31) : FVec Ideal S50000x256 .f32) = Cert.Gcn.matProd (arg0 m c) (arg2 m c) := by
  rw [← v31_W2 m ρ c]
  show StableHlo.after hostOps1_1 (StableHlo.after hostOps1 (W2 m ρ c)) (Proc.devRef .tc main_v31) = _
  after_results_simp

/-- The same stretch reshapes the bias vector [256] to the row [1, 256]: entry (0, q) of the row is entry q of the vector. -/
theorem v38_W4 (c : Dev nD) : (W4 m ρ c (Proc.devRef .tc main_v38) : FVec Ideal S1x256 .f32) = Cert.Gcn.biasRow (arg3 m c) := by
  rw [← w2_b m ρ c]
  show StableHlo.after hostOps1_1 (StableHlo.after hostOps1 (W2 m ρ c)) (Proc.devRef .tc main_v38) = _
  after_results
  funext i
  obtain ⟨u, q, rfl⟩ : ∃ (u : Fin 1) (q : Fin 256), i = ix2 u q := ⟨i 0, i 1, eq_ix2 i⟩
  exact shapeCast_a_1a_apply _ _ u q

set_option maxHeartbeats 4000000 in
/-- The aggregation the host computes between the two regions: the filling gather of the product's rows at the sources
    (the plain gather, every source being a node), each row scaled by its edge's norm, scatter-added at the destinations. -/
theorem v37_W4 (c : Dev nD) (hok : Cert.Gcn.SrcOk (arg1 m c)) :
    (W4 m ρ c (Proc.devRef .tc main_v37) : FVec Ideal S50000x256 .f32)
      = Cert.Gcn.agg256 (Cert.Gcn.matProd (arg0 m c) (arg2 m c)) (arg1 m c) := by
  show StableHlo.after hostOps1_1 (StableHlo.after hostOps1 (W2 m ρ c)) (Proc.devRef .tc main_v37) = _
  after_results_simp
  simp only [ofBuf_toBuf, ofBuf_v1, ofBuf_v31, toBuf_v32]
  rw [w2_src m ρ c, w2_dst m ρ c, w2_nrm m ρ c, v31_W2 m ρ c]
  generalize Cert.Gcn.matProd (arg0 m c) (arg2 m c) = h
  generalize arg1 m c = ei at hok ⊢
  unfold Cert.Gcn.agg256
  rw [← Cert.Gcn.takeFill256_src h ei hok]
  generalize Cert.Gcn.srcOf ei = src
  unfold Cert.Gcn.takeFill256 Cert.Gcn.inRange Cert.Gcn.wrapIdx
  rfl

/-- After the first combine region its output array is the first hidden array. -/
theorem v39_W5 (c : Dev nD) (hok : Cert.Gcn.SrcOk (arg1 m c)) :
    (W5 m ρ c (Proc.devRef .tc main_v39) : FVec Ideal S50000x256 .f32) = Cert.Gcn.hidden1 (arg0 m c) (arg1 m c) (arg2 m c) (arg3 m c) := by
  unfold Cert.Gcn.hidden1
  rw [← v37_W4 m ρ c hok, ← v31_W4 m ρ c, ← w4_d2 m ρ c, ← v38_W4 m ρ c]
  exact (W5_arr m ρ c 4).trans (Cert.KernelIdeal.RegionValue.arr1 (V4 m ρ) c)

end Cert.KernelIdeal.ChainValue

end
-- ==== Proof.KLayer2.lean ====
import proofs.«404923_j6158983102957_2_alg».proof.Proof.Gen.KernelIdeal.Frame
import proofs.«404923_j6158983102957_2_alg».proof.Proof.Spec
import proofs.«404923_j6158983102957_2_alg».proof.Proof.Take
import proofs.«404923_j6158983102957_2_alg».proof.Proof.KPlumb
import proofs.«404923_j6158983102957_2_alg».proof.Proof.KRegion2
import proofs.«404923_j6158983102957_2_alg».proof.Proof.KRegion3
import proofs.«404923_j6158983102957_2_alg».proof.Proof.KLayer1
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.ChainValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! Typed references of an inlined function's operations: written at the buffer's type and read back at the value's,
    contents are unchanged. -/

private theorem ofBuf_toBuf {T : BufTy} (x : StableHlo.TRef sig T) (v : T.Contents (Elt Ideal)) : x.ofBuf (x.toBuf v) = v := by
  obtain ⟨r, rfl, h2, h3⟩ := x
  rfl

private theorem ofBuf_v1 (p1 p2 p3) (X : (main_v1 : Ref sig .tc).ty.Contents (Elt Ideal)) :
    (StableHlo.TRef.of (T := ⟨S800000, .i32⟩) main_v1 p1 p2 p3).ofBuf X = X := rfl
private theorem ofBuf_v41 (p1 p2 p3) (X : (main_v41 : Ref sig .tc).ty.Contents (Elt Ideal)) :
    (StableHlo.TRef.of (T := ⟨S50000x256, .f32⟩) main_v41 p1 p2 p3).ofBuf X = X := rfl
private theorem toBuf_v42 (p1 p2 p3) (X : (⟨S800000x256, .f32⟩ : BufTy).Contents (Elt Ideal)) :
    (StableHlo.TRef.of (T := ⟨S800000x256, .f32⟩) main_v42 p1 p2 p3).toBuf X = X := rfl

/-- Entering the second product, the first hidden array is as the first combine left it: the stretch between the two
    regions writes no entry of it. -/
theorem v39_W6 (c : Dev nD) (hok : Cert.Gcn.SrcOk (arg1 m c)) :
    (W6 m ρ c (Proc.devRef .tc main_v39) : FVec Ideal S50000x256 .f32) = Cert.Gcn.hidden1 (arg0 m c) (arg1 m c) (arg2 m c) (arg3 m c) := by
  rw [← v39_W5 m ρ c hok]
  show StableHlo.after hostOps2 (W5 m ρ c) (Proc.devRef .tc main_v39) = _
  after_results

/-- The second product's weights are the argument: the change of float format before the region is the identity. -/
theorem v40_W6 (c : Dev nD) : (W6 m ρ c (Proc.devRef .tc main_v40) : FVec Ideal S256x256 .bf16) = arg4 m c := by
  rw [← w5_w m ρ c]
  show StableHlo.after hostOps2 (W5 m ρ c) (Proc.devRef .tc main_v40) = _
  after_results
  rfl

/-- After the second product region its output array is hidden1 · W2. -/
theorem v41_W7 (c : Dev nD) (hok : Cert.Gcn.SrcOk (arg1 m c)) :
    (W7 m ρ c (Proc.devRef .tc main_v41) : FVec Ideal S50000x256 .f32)
      = Cert.Gcn.matProd (Cert.Gcn.hidden1 (arg0 m c) (arg1 m c) (arg2 m c) (arg3 m c)) (arg4 m c) := by
  rw [← v39_W6 m ρ c hok, ← v40_W6 m ρ c]
  exact (W7_arr m ρ c 2).trans (Cert.KernelIdeal.RegionValue.arr2 (V6 m ρ) c)

/-- The host stretch before the second combine writes no entry of the product's array. -/
theorem v41_W9 (c : Dev nD) (hok : Cert.Gcn.SrcOk (arg1 m c)) :
    (W9 m ρ c (Proc.devRef .tc main_v41) : FVec Ideal S50000x256 .f32)
      = Cert.Gcn.matProd (Cert.Gcn.hidden1 (arg0 m c) (arg1 m c) (arg2 m c) (arg3 m c)) (arg4 m c) := by
  rw [← v41_W7 m ρ c hok]
  show StableHlo.after hostOps3_1 (StableHlo.after hostOps3 (W7 m ρ c)) (Proc.devRef .tc main_v41) = _
  after_results_simp

/-- The same stretch reshapes the bias vector [256] to the row [1, 256]: entry (0, q) of the row is entry q of the vector. -/
theorem v48_W9 (c : Dev nD) : (W9 m ρ c (Proc.devRef .tc main_v48) : FVec Ideal S1x256 .f32) = Cert.Gcn.biasRow (arg5 m c) := by
  rw [← w7_b m ρ c]
  show StableHlo.after hostOps3_1 (StableHlo.after hostOps3 (W7 m ρ c)) (Proc.devRef .tc main_v48) = _
  after_results
  funext i
  obtain ⟨u, q, rfl⟩ : ∃ (u : Fin 1) (q : Fin 256), i = ix2 u q := ⟨i 0, i 1, eq_ix2 i⟩
  exact shapeCast_a_1a_apply _ _ u q

set_option maxHeartbeats 4000000 in
/-- The aggregation the host computes between the two regions: the filling gather of the product's rows at the sources
    (the plain gather, every source being a node), each row scaled by its edge's norm, scatter-added at the destinations. -/
theorem v47_W9 (c : Dev nD) (hok : Cert.Gcn.SrcOk (arg1 m c)) :
    (W9 m ρ c (Proc.devRef .tc main_v47) : FVec Ideal S50000x256 .f32)
      = Cert.Gcn.agg256 (Cert.Gcn.matProd (Cert.Gcn.hidden1 (arg0 m c) (arg1 m c) (arg2 m c) (arg3 m c)) (arg4 m c)) (arg1 m c) := by
  show StableHlo.after hostOps3_1 (StableHlo.after hostOps3 (W7 m ρ c)) (Proc.devRef .tc main_v47) = _
  after_results_simp
  simp only [ofBuf_toBuf, ofBuf_v1, ofBuf_v41, toBuf_v42]
  rw [w7_src m ρ c, w7_dst m ρ c, w7_nrm m ρ c, v41_W7 m ρ c hok]
  generalize Cert.Gcn.matProd (Cert.Gcn.hidden1 (arg0 m c) (arg1 m c) (arg2 m c) (arg3 m c)) (arg4 m c) = h
  generalize arg1 m c = ei at hok ⊢
  unfold Cert.Gcn.agg256
  rw [← Cert.Gcn.takeFill256_src h ei hok]
  generalize Cert.Gcn.srcOf ei = src
  unfold Cert.Gcn.takeFill256 Cert.Gcn.inRange Cert.Gcn.wrapIdx
  rfl

/-- After the second combine region its output array is the second hidden array. -/
theorem v49_W10 (c : Dev nD) (hok : Cert.Gcn.SrcOk (arg1 m c)) :
    (W10 m ρ c (Proc.devRef .tc main_v49) : FVec Ideal S50000x256 .f32)
      = Cert.Gcn.hidden2 (arg0 m c) (arg1 m c) (arg2 m c) (arg3 m c) (arg4 m c) (arg5 m c) := by
  unfold Cert.Gcn.hidden2
  rw [← v47_W9 m ρ c hok, ← v41_W9 m ρ c hok, ← w9_d2 m ρ c, ← v48_W9 m ρ c]
  exact (W10_arr m ρ c 4).trans (Cert.KernelIdeal.RegionValue.arr3 (V9 m ρ) c)

end Cert.KernelIdeal.ChainValue

end
-- ==== Proof.KLayer3.lean ====
import proofs.«404923_j6158983102957_2_alg».proof.Proof.Gen.KernelIdeal.Frame
import proofs.«404923_j6158983102957_2_alg».proof.Proof.Spec
import proofs.«404923_j6158983102957_2_alg».proof.Proof.Take
import proofs.«404923_j6158983102957_2_alg».proof.Proof.KPlumb
import proofs.«404923_j6158983102957_2_alg».proof.Proof.KRegion4
import proofs.«404923_j6158983102957_2_alg».proof.Proof.KRegion5
import proofs.«404923_j6158983102957_2_alg».proof.Proof.KLayer2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.ChainValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! Typed references of an inlined function's operations: written at the buffer's type and read back at the value's,
    contents are unchanged. -/

private theorem ofBuf_toBuf {T : BufTy} (x : StableHlo.TRef sig T) (v : T.Contents (Elt Ideal)) : x.ofBuf (x.toBuf v) = v := by
  obtain ⟨r, rfl, h2, h3⟩ := x
  rfl

private theorem ofBuf_v1 (p1 p2 p3) (X : (main_v1 : Ref sig .tc).ty.Contents (Elt Ideal)) :
    (StableHlo.TRef.of (T := ⟨S800000, .i32⟩) main_v1 p1 p2 p3).ofBuf X = X := rfl
private theorem ofBuf_v51 (p1 p2 p3) (X : (main_v51 : Ref sig .tc).ty.Contents (Elt Ideal)) :
    (StableHlo.TRef.of (T := ⟨S50000x64, .f32⟩) main_v51 p1 p2 p3).ofBuf X = X := rfl
private theorem toBuf_v52 (p1 p2 p3) (X : (⟨S800000x64, .f32⟩ : BufTy).Contents (Elt Ideal)) :
    (StableHlo.TRef.of (T := ⟨S800000x64, .f32⟩) main_v52 p1 p2 p3).toBuf X = X := rfl

/-- Entering the third product, the second hidden array is as the second combine left it: the stretch between the two
    regions writes no entry of it. -/
theorem v49_W11 (c : Dev nD) (hok : Cert.Gcn.SrcOk (arg1 m c)) :
    (W11 m ρ c (Proc.devRef .tc main_v49) : FVec Ideal S50000x256 .f32)
      = Cert.Gcn.hidden2 (arg0 m c) (arg1 m c) (arg2 m c) (arg3 m c) (arg4 m c) (arg5 m c) := by
  rw [← v49_W10 m ρ c hok]
  show StableHlo.after hostOps4 (W10 m ρ c) (Proc.devRef .tc main_v49) = _
  after_results

/-- The third product's weights are the argument: the change of float format before the region is the identity. -/
theorem v50_W11 (c : Dev nD) : (W11 m ρ c (Proc.devRef .tc main_v50) : FVec Ideal S256x64 .bf16) = arg6 m c := by
  rw [← w10_w m ρ c]
  show StableHlo.after hostOps4 (W10 m ρ c) (Proc.devRef .tc main_v50) = _
  after_results
  rfl

/-- After the third product region its output array is hidden2 · W3. -/
theorem v51_W12 (c : Dev nD) (hok : Cert.Gcn.SrcOk (arg1 m c)) :
    (W12 m ρ c (Proc.devRef .tc main_v51) : FVec Ideal S50000x64 .f32)
      = Cert.Gcn.matProd (Cert.Gcn.hidden2 (arg0 m c) (arg1 m c) (arg2 m c) (arg3 m c) (arg4 m c) (arg5 m c)) (arg6 m c) := by
  rw [← v49_W11 m ρ c hok, ← v50_W11 m ρ c]
  exact (W12_arr m ρ c 2).trans (Cert.KernelIdeal.RegionValue.arr4 (V11 m ρ) c)

/-- The host stretch before the last region writes no entry of the product's array. -/
theorem v51_W14 (c : Dev nD) (hok : Cert.Gcn.SrcOk (arg1 m c)) :
    (W14 m ρ c (Proc.devRef .tc main_v51) : FVec Ideal S50000x64 .f32)
      = Cert.Gcn.matProd (Cert.Gcn.hidden2 (arg0 m c) (arg1 m c) (arg2 m c) (arg3 m c) (arg4 m c) (arg5 m c)) (arg6 m c) := by
  rw [← v51_W12 m ρ c hok]
  show StableHlo.after hostOps5_1 (StableHlo.after hostOps5 (W12 m ρ c)) (Proc.devRef .tc main_v51) = _
  after_results_simp

/-- The same stretch reshapes the bias vector [64] to the row [1, 64]: entry (0, q) of the row is entry q of the vector. -/
theorem v58_W14 (c : Dev nD) : (W14 m ρ c (Proc.devRef .tc main_v58) : FVec Ideal S1x64 .f32) = Cert.Gcn.biasRow (arg7 m c) := by
  rw [← w12_b m ρ c]
  show StableHlo.after hostOps5_1 (StableHlo.after hostOps5 (W12 m ρ c)) (Proc.devRef .tc main_v58) = _
  after_results
  funext i
  obtain ⟨u, q, rfl⟩ : ∃ (u : Fin 1) (q : Fin 64), i = ix2 u q := ⟨i 0, i 1, eq_ix2 i⟩
  exact shapeCast_a_1a_apply _ _ u q

set_option maxHeartbeats 4000000 in
/-- The aggregation the host computes between the two regions: the filling gather of the product's rows at the sources
    (the plain gather, every source being a node), each row scaled by its edge's norm, scatter-added at the destinations. -/
theorem v57_W14 (c : Dev nD) (hok : Cert.Gcn.SrcOk (arg1 m c)) :
    (W14 m ρ c (Proc.devRef .tc main_v57) : FVec Ideal S50000x64 .f32)
      = Cert.Gcn.agg64 (Cert.Gcn.matProd (Cert.Gcn.hidden2 (arg0 m c) (arg1 m c) (arg2 m c) (arg3 m c) (arg4 m c) (arg5 m c)) (arg6 m c)) (arg1 m c) := by
  show StableHlo.after hostOps5_1 (StableHlo.after hostOps5 (W12 m ρ c)) (Proc.devRef .tc main_v57) = _
  after_results_simp
  simp only [ofBuf_toBuf, ofBuf_v1, ofBuf_v51, toBuf_v52]
  rw [w12_src m ρ c, w12_dst m ρ c, w12_nrm m ρ c, v51_W12 m ρ c hok]
  generalize Cert.Gcn.matProd (Cert.Gcn.hidden2 (arg0 m c) (arg1 m c) (arg2 m c) (arg3 m c) (arg4 m c) (arg5 m c)) (arg6 m c) = h
  generalize arg1 m c = ei at hok ⊢
  unfold Cert.Gcn.agg64
  rw [← Cert.Gcn.takeFill64_src h ei hok]
  generalize Cert.Gcn.srcOf ei = src
  unfold Cert.Gcn.takeFill64 Cert.Gcn.inRange Cert.Gcn.wrapIdx
  rfl

/-- After the last region the result array is the three-layer function of the arguments. -/
theorem v59_W15 (c : Dev nD) (hok : Cert.Gcn.SrcOk (arg1 m c)) :
    (W15 m ρ c (Proc.devRef .tc main_v59) : FVec Ideal S50000x64 .f32)
      = Cert.Gcn.result (arg0 m c) (arg1 m c) (arg2 m c) (arg3 m c) (arg4 m c) (arg5 m c) (arg6 m c) (arg7 m c) := by
  unfold Cert.Gcn.result
  rw [← v57_W14 m ρ c hok, ← v51_W14 m ρ c hok, ← w14_d2 m ρ c, ← v58_W14 m ρ c]
  exact (W15_arr m ρ c 4).trans (Cert.KernelIdeal.RegionValue.arr5 (V14 m ρ) c)

end Cert.KernelIdeal.ChainValue

end
-- ==== Proof.RRun.lean ====
/-
  The reference's run, read through its stages.

  The library's run theorem leaves every buffer at the fold of the program's 201 host operations from the launch
  contents. The fold is opened in five stretches — the first layer up to the first hidden array, the second layer up to
  the second hidden array, the third layer up to its sum, then the row softmax, then the row log-softmax — each stretch read from the
  contents the one before leaves, with only the buffers a later stretch reads carried across (the hidden array, the two
  edge lists, the remaining arguments). Within a stretch every operation's result is its stage's value by definition.
-/
import proofs.«404923_j6158983102957_2_alg».proof.Proof.RefRead
import proofs.«404923_j6158983102957_2_alg».proof.Proof.RefRun
import Idealize.ShloMosaic.Lib.StableHlo.Run
import Idealize.ShloMosaic.Lib.Pipeline.Frame

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Read Cert.ReferenceIdeal.Value

variable {F : FTy → Type} [FloatOps F]

/-- Operations 1 … 61: the first layer, through its relu. -/
abbrev layer1Ops : List (HloOp τ sig (Elt F)) := (ops (F := F)).take 61
/-- Operations 62 … 118: the second layer, through its relu. -/
abbrev layer2Ops : List (HloOp τ sig (Elt F)) := ((ops (F := F)).drop 61).take 57
/-- Operations 119 … 172: the third layer, up to its sum with the bias. -/
abbrev layer3Ops : List (HloOp τ sig (Elt F)) := (((ops (F := F)).drop 61).drop 57).take 54
/-- Operations 173 … 186: the row softmax. -/
abbrev softOps : List (HloOp τ sig (Elt F)) := ((((ops (F := F)).drop 61).drop 57).drop 54).take 14
/-- Operations 187 … 201: the row log-softmax. -/
abbrev logOps : List (HloOp τ sig (Elt F)) := ((((ops (F := F)).drop 61).drop 57).drop 54).drop 14

theorem ops_cut : ops (F := F) = layer1Ops ++ (layer2Ops ++ (layer3Ops ++ (softOps ++ logOps))) := by
  simp only [layer1Ops, layer2Ops, layer3Ops, softOps, logOps, List.take_append_drop]

/-! ## The first stretch, from any contents -/

section Layer1
variable (V : Valuation τ sig (Elt F))

set_option maxRecDepth 8192 in
set_option maxHeartbeats 8000000 in
theorem l1_hidden : after layer1Ops V (Proc.devRef .tc main_v48)
    = val_main_v48 (F := F) (V (Proc.devRef .tc main_arg0)) (V (Proc.devRef .tc main_arg1)) (V (Proc.devRef .tc main_arg2)) (V (Proc.devRef .tc main_arg3)) := by
  simp only [layer1Ops, ops, List.take_succ_cons, List.take_zero]
  after_results_simp <;> rfl

set_option maxRecDepth 8192 in
set_option maxHeartbeats 8000000 in
theorem l1_src : after layer1Ops V (Proc.devRef .tc main_v1) = val_main_v1 (F := F) (V (Proc.devRef .tc main_arg1)) := by
  simp only [layer1Ops, ops, List.take_succ_cons, List.take_zero]
  after_results_simp <;> rfl

set_option maxRecDepth 8192 in
set_option maxHeartbeats 8000000 in
theorem l1_dst : after layer1Ops V (Proc.devRef .tc main_v3) = val_main_v3 (F := F) (V (Proc.devRef .tc main_arg1)) := by
  simp only [layer1Ops, ops, List.take_succ_cons, List.take_zero]
  after_results_simp <;> rfl

set_option maxRecDepth 8192 in
set_option maxHeartbeats 8000000 in
theorem l1_arg4 : after layer1Ops V (Proc.devRef .tc main_arg4) = V (Proc.devRef .tc main_arg4) := by
  simp only [layer1Ops, ops, List.take_succ_cons, List.take_zero]
  after_results_simp <;> rfl

set_option maxRecDepth 8192 in
set_option maxHeartbeats 8000000 in
theorem l1_arg5 : after layer1Ops V (Proc.devRef .tc main_arg5) = V (Proc.devRef .tc main_arg5) := by
  simp only [layer1Ops, ops, List.take_succ_cons, List.take_zero]
  after_results_simp <;> rfl

set_option maxRecDepth 8192 in
set_option maxHeartbeats 8000000 in
theorem l1_arg6 : after layer1Ops V (Proc.devRef .tc main_arg6) = V (Proc.devRef .tc main_arg6) := by
  simp only [layer1Ops, ops, List.take_succ_cons, List.take_zero]
  after_results_simp <;> rfl

set_option maxRecDepth 8192 in
set_option maxHeartbeats 8000000 in
theorem l1_arg7 : after layer1Ops V (Proc.devRef .tc main_arg7) = V (Proc.devRef .tc main_arg7) := by
  simp only [layer1Ops, ops, List.take_succ_cons, List.take_zero]
  after_results_simp <;> rfl

end Layer1

/-! ## The second stretch, from contents that hold the first hidden array and the two edge lists -/

section Layer2
variable (VA : Valuation τ sig (Elt F))

set_option maxRecDepth 8192 in
set_option maxHeartbeats 8000000 in
theorem l2_hidden (a0 : (⟨S50000x512, .f32⟩ : BufTy).Contents (Elt F)) (a1 : (⟨S2x800000, .i32⟩ : BufTy).Contents (Elt F)) (a2 : (⟨S512x256, .f32⟩ : BufTy).Contents (Elt F)) (a3 : (⟨S256, .f32⟩ : BufTy).Contents (Elt F))
    (h48 : VA (Proc.devRef .tc main_v48) = val_main_v48 (F := F) a0 a1 a2 a3)
    (h1 : VA (Proc.devRef .tc main_v1) = val_main_v1 (F := F) a1) (h3 : VA (Proc.devRef .tc main_v3) = val_main_v3 (F := F) a1) :
    after layer2Ops VA (Proc.devRef .tc main_v93)
      = val_main_v93 (F := F) a0 a1 a2 a3 (VA (Proc.devRef .tc main_arg4)) (VA (Proc.devRef .tc main_arg5)) := by
  simp only [layer2Ops, ops, List.drop_succ_cons, List.drop_zero, List.take_succ_cons, List.take_zero]
  after_results_simp
  rw [h48, h1, h3]
  rfl

set_option maxRecDepth 8192 in
set_option maxHeartbeats 8000000 in
theorem l2_src : after layer2Ops VA (Proc.devRef .tc main_v1) = VA (Proc.devRef .tc main_v1) := by
  simp only [layer2Ops, ops, List.drop_succ_cons, List.drop_zero, List.take_succ_cons, List.take_zero]
  after_results_simp <;> rfl

set_option maxRecDepth 8192 in
set_option maxHeartbeats 8000000 in
theorem l2_dst : after layer2Ops VA (Proc.devRef .tc main_v3) = VA (Proc.devRef .tc main_v3) := by
  simp only [layer2Ops, ops, List.drop_succ_cons, List.drop_zero, List.take_succ_cons, List.take_zero]
  after_results_simp <;> rfl

set_option maxRecDepth 8192 in
set_option maxHeartbeats 8000000 in
theorem l2_arg6 : after layer2Ops VA (Proc.devRef .tc main_arg6) = VA (Proc.devRef .tc main_arg6) := by
  simp only [layer2Ops, ops, List.drop_succ_cons, List.drop_zero, List.take_succ_cons, List.take_zero]
  after_results_simp <;> rfl

set_option maxRecDepth 8192 in
set_option maxHeartbeats 8000000 in
theorem l2_arg7 : after layer2Ops VA (Proc.devRef .tc main_arg7) = VA (Proc.devRef .tc main_arg7) := by
  simp only [layer2Ops, ops, List.drop_succ_cons, List.drop_zero, List.take_succ_cons, List.take_zero]
  after_results_simp <;> rfl

end Layer2

/-! ## The third stretch, from contents that hold the second hidden array and the two edge lists -/

section Layer3
variable (VB : Valuation τ sig (Elt F))

set_option maxRecDepth 8192 in
set_option maxHeartbeats 8000000 in
theorem l3_sum (a0 : (⟨S50000x512, .f32⟩ : BufTy).Contents (Elt F)) (a1 : (⟨S2x800000, .i32⟩ : BufTy).Contents (Elt F)) (a2 : (⟨S512x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F))
    (h93 : VB (Proc.devRef .tc main_v93) = val_main_v93 (F := F) a0 a1 a2 a3 a4 a5)
    (h1 : VB (Proc.devRef .tc main_v1) = val_main_v1 (F := F) a1) (h3 : VB (Proc.devRef .tc main_v3) = val_main_v3 (F := F) a1) :
    after layer3Ops VB (Proc.devRef .tc main_v137)
      = val_main_v137 (F := F) a0 a1 a2 a3 a4 a5 (VB (Proc.devRef .tc main_arg6)) (VB (Proc.devRef .tc main_arg7)) := by
  simp only [layer3Ops, ops, List.drop_succ_cons, List.drop_zero, List.take_succ_cons, List.take_zero]
  after_results_simp
  rw [h93, h1, h3]
  rfl

end Layer3

/-! ## The softmax stretch, from contents that hold the third layer's sum -/

section Soft
variable (VC : Valuation τ sig (Elt F))

set_option maxRecDepth 8192 in
set_option maxHeartbeats 8000000 in
theorem soft_result (a0 : (⟨S50000x512, .f32⟩ : BufTy).Contents (Elt F)) (a1 : (⟨S2x800000, .i32⟩ : BufTy).Contents (Elt F)) (a2 : (⟨S512x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F)) (a6 : (⟨S256x64, .f32⟩ : BufTy).Contents (Elt F)) (a7 : (⟨S64, .f32⟩ : BufTy).Contents (Elt F))
    (h137 : VC (Proc.devRef .tc main_v137) = val_main_v137 (F := F) a0 a1 a2 a3 a4 a5 a6 a7) :
    after softOps VC (Proc.devRef .tc main_v148) = val_main_v148 (F := F) a0 a1 a2 a3 a4 a5 a6 a7 := by
  simp only [softOps, ops, List.drop_succ_cons, List.drop_zero, List.take_succ_cons, List.take_zero]
  after_results_simp
  rw [h137]
  rfl

end Soft

/-! ## The log-softmax stretch, from contents that hold the softmax -/

section Log
variable (VD : Valuation τ sig (Elt F))

/-- Contents carried to a buffer's own type and back are the contents. -/
private theorem ofBuf_toBuf {T : BufTy} (x : StableHlo.TRef sig T) (v : T.Contents (Elt F)) : x.ofBuf (x.toBuf v) = v := by
  obtain ⟨r, rfl, h2, h3⟩ := x
  rfl

/-- At the softmax's buffer, whose type is the value's by computation, the transport is the identity. -/
private theorem ofBuf_v148 (p1 p2 p3) (X : (main_v148 : Ref sig .tc).ty.Contents (Elt F)) :
    (StableHlo.TRef.of (T := ⟨S50000x64, .f32⟩) main_v148 p1 p2 p3).ofBuf X = X := rfl

/-- Likewise at the result's buffer. -/
private theorem toBuf_v149 (p1 p2 p3) (X : (⟨S50000x64, .f32⟩ : BufTy).Contents (Elt F)) :
    (StableHlo.TRef.of (T := ⟨S50000x64, .f32⟩) main_v149 p1 p2 p3).toBuf X = X := rfl

set_option maxRecDepth 8192 in
set_option maxHeartbeats 8000000 in
theorem log_result (a0 : (⟨S50000x512, .f32⟩ : BufTy).Contents (Elt F)) (a1 : (⟨S2x800000, .i32⟩ : BufTy).Contents (Elt F)) (a2 : (⟨S512x256, .f32⟩ : BufTy).Contents (Elt F)) (a3 : (⟨S256, .f32⟩ : BufTy).Contents (Elt F)) (a4 : (⟨S256x256, .f32⟩ : BufTy).Contents (Elt F)) (a5 : (⟨S256, .f32⟩ : BufTy).Contents (Elt F)) (a6 : (⟨S256x64, .f32⟩ : BufTy).Contents (Elt F)) (a7 : (⟨S64, .f32⟩ : BufTy).Contents (Elt F))
    (h148 : VD (Proc.devRef .tc main_v148) = val_main_v148 (F := F) a0 a1 a2 a3 a4 a5 a6 a7) :
    after logOps VD (Proc.devRef .tc main_v149) = val_main_v149 (F := F) a0 a1 a2 a3 a4 a5 a6 a7 := by
  simp only [logOps, ops, List.drop_succ_cons, List.drop_zero]
  after_results_simp
  simp only [ofBuf_toBuf, ofBuf_v148, toBuf_v149]
  rw [h148]
  rfl

end Log

/-! ## The whole fold -/

/-- After all the operations, from any contents, the result buffer holds the last stage's value of the arguments. -/
theorem after_result (V : Valuation τ sig (Elt F)) :
    after ops V (Proc.devRef .tc main_v149) = val_main_v149 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_cut, StableHlo.after_append, StableHlo.after_append, StableHlo.after_append, StableHlo.after_append]
  have hA48 := l1_hidden V
  have hA1 := l1_src V
  have hA3 := l1_dst V
  have hA4 := l1_arg4 V
  have hA5 := l1_arg5 V
  have hA6 := l1_arg6 V
  have hA7 := l1_arg7 V
  generalize after layer1Ops V = VA at hA48 hA1 hA3 hA4 hA5 hA6 hA7 ⊢
  have hB93 := l2_hidden VA _ _ _ _ hA48 hA1 hA3
  rw [hA4, hA5] at hB93
  have hB1 := (l2_src VA).trans hA1
  have hB3 := (l2_dst VA).trans hA3
  have hB6 := (l2_arg6 VA).trans hA6
  have hB7 := (l2_arg7 VA).trans hA7
  generalize after layer2Ops VA = VB at hB93 hB1 hB3 hB6 hB7 ⊢
  have hC := l3_sum VB _ _ _ _ _ _ hB93 hB1 hB3
  rw [hB6, hB7] at hC
  generalize after layer3Ops VB = VC at hC ⊢
  have hD := soft_result VC _ _ _ _ _ _ _ _ hC
  generalize after softOps VC = VD at hD ⊢
  exact log_result VD _ _ _ _ _ _ _ _ hD

set_option maxRecDepth 8192 in
set_option maxHeartbeats 8000000 in
/-- No operation writes argument 0. -/
theorem after_arg0 (V : Valuation τ sig (Elt F)) : after ops V (Proc.devRef .tc main_arg0) = V (Proc.devRef .tc main_arg0) := by
  simp only [ops]
  after_results_simp <;> rfl

set_option maxRecDepth 8192 in
set_option maxHeartbeats 8000000 in
/-- No operation writes argument 1. -/
theorem after_arg1 (V : Valuation τ sig (Elt F)) : after ops V (Proc.devRef .tc main_arg1) = V (Proc.devRef .tc main_arg1) := by
  simp only [ops]
  after_results_simp <;> rfl

set_option maxRecDepth 8192 in
set_option maxHeartbeats 8000000 in
/-- No operation writes argument 2. -/
theorem after_arg2 (V : Valuation τ sig (Elt F)) : after ops V (Proc.devRef .tc main_arg2) = V (Proc.devRef .tc main_arg2) := by
  simp only [ops]
  after_results_simp <;> rfl

set_option maxRecDepth 8192 in
set_option maxHeartbeats 8000000 in
/-- No operation writes argument 3. -/
theorem after_arg3 (V : Valuation τ sig (Elt F)) : after ops V (Proc.devRef .tc main_arg3) = V (Proc.devRef .tc main_arg3) := by
  simp only [ops]
  after_results_simp <;> rfl

set_option maxRecDepth 8192 in
set_option maxHeartbeats 8000000 in
/-- No operation writes argument 4. -/
theorem after_arg4 (V : Valuation τ sig (Elt F)) : after ops V (Proc.devRef .tc main_arg4) = V (Proc.devRef .tc main_arg4) := by
  simp only [ops]
  after_results_simp <;> rfl

set_option maxRecDepth 8192 in
set_option maxHeartbeats 8000000 in
/-- No operation writes argument 5. -/
theorem after_arg5 (V : Valuation τ sig (Elt F)) : after ops V (Proc.devRef .tc main_arg5) = V (Proc.devRef .tc main_arg5) := by
  simp only [ops]
  after_results_simp <;> rfl

set_option maxRecDepth 8192 in
set_option maxHeartbeats 8000000 in
/-- No operation writes argument 6. -/
theorem after_arg6 (V : Valuation τ sig (Elt F)) : after ops V (Proc.devRef .tc main_arg6) = V (Proc.devRef .tc main_arg6) := by
  simp only [ops]
  after_results_simp <;> rfl

set_option maxRecDepth 8192 in
set_option maxHeartbeats 8000000 in
/-- No operation writes argument 7. -/
theorem after_arg7 (V : Valuation τ sig (Elt F)) : after ops V (Proc.devRef .tc main_arg7) = V (Proc.devRef .tc main_arg7) := by
  simp only [ops]
  after_results_simp <;> rfl

/-! ## The run -/

/-- The reference's run read through its stages: every weakly fair execution terminates with the result buffer at the
    last stage's value of the argument arrays as launched, the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149)
        = val_main_v149 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c main_v149).trans (after_result _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _), (h c main_arg7).trans (after_arg7 _)⟩)
    (Cert.ReferenceIdeal.Value.run_all m ρ)

end Cert.ReferenceIdeal.RefValue

end
-- ==== Proof.RGraph.lean ====
import proofs.«404923_j6158983102957_2_alg».proof.Proof.RefRead
import proofs.«404923_j6158983102957_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! The graph quantities the reference computes once per layer are the ones of the specification. -/

/-! ## The two rows of the edge array -/

/-- Row 0 of the edge array, flattened: the source node of each edge. -/
private theorem v1_eq_srcOf (a1 : IVec S2x800000 32) : val_main_v1 (F := Ideal) a1 = Cert.Gcn.srcOf a1 := by
  unfold val_main_v1 val_main_v0 Cert.Gcn.srcOf
  rfl

/-- Row 1 of the edge array, flattened: the destination node of each edge. -/
private theorem v3_eq_dstOf (a1 : IVec S2x800000 32) : val_main_v3 (F := Ideal) a1 = Cert.Gcn.dstOf a1 := by
  unfold val_main_v3 val_main_v2 Cert.Gcn.dstOf
  rfl

/-! ## The first layer's copy -/

/-- deg^(-1/2): one plus the scatter-add of ones at the destinations, under rsqrt. -/
private theorem v11_eq_dinvOf (a1 : IVec S2x800000 32) : val_main_v11 (F := Ideal) a1 = Cert.Gcn.dinvOf a1 := by
  unfold val_main_v11 val_main_v10 val_main_v9 val_main_v8 val_main_v7 val_main_v6 val_main_v5 val_main_cst val_main_cst_0 val_main_cst_1
  rw [v3_eq_dstOf]
  unfold Cert.Gcn.dinvOf
  rfl

/-- The source column as the gather of dinv reads it (a negative index counted from the end). -/
private theorem v17_eq_wrap (a1 : IVec S2x800000 32) : val_main_v17 (F := Ideal) a1 = Cert.Gcn.wrapIdx (Cert.Gcn.srcOf a1) := by
  unfold val_main_v17 val_main_v16 val_main_v13 val_main_v15 val_main_v12 val_main_v14 val_main_c val_main_c_2
  rw [v1_eq_srcOf]
  unfold Cert.Gcn.wrapIdx
  rfl

/-- The destination column as the gather of dinv reads it. -/
private theorem v24_eq_wrap (a1 : IVec S2x800000 32) : val_main_v24 (F := Ideal) a1 = Cert.Gcn.wrapIdx (Cert.Gcn.dstOf a1) := by
  unfold val_main_v24 val_main_v23 val_main_v20 val_main_v22 val_main_v19 val_main_v21 val_main_c_3 val_main_c_4
  rw [v3_eq_dstOf]
  unfold Cert.Gcn.wrapIdx
  rfl

/-- norm[e] = dinv[src e] * dinv[dst e]: the same two gathers of the same operands, multiplied. -/
private theorem v26_eq_normOf (a1 : IVec S2x800000 32) : val_main_v26 (F := Ideal) a1 = Cert.Gcn.normOf a1 := by
  unfold val_main_v26 val_main_v18 val_main_v25
  rw [v11_eq_dinvOf, v17_eq_wrap, v24_eq_wrap]
  unfold Cert.Gcn.normOf
  rfl

theorem r_idx_1 (a1 : IVec S2x800000 32) : val_main_v32 (F := Ideal) a1 = Cert.Gcn.wrapIdx (Cert.Gcn.srcOf a1) := by
  unfold val_main_v32 val_main_v31 val_main_v28 val_main_v30 val_main_v27 val_main_v29 val_main_c_5 val_main_c_6
  rw [v1_eq_srcOf]
  unfold Cert.Gcn.wrapIdx
  rfl
theorem r_dstcol_1 (a1 : IVec S2x800000 32) : val_main_v38 (F := Ideal) a1
    = broadcastInDim Cert.KernelIdeal.S800000x1 ![0] Cert.KernelIdeal.Facts₀.bcast_S800000_S800000x1_0 (Cert.Gcn.dstOf a1) := by
  unfold val_main_v38
  rw [v3_eq_dstOf]
/-- The norm column read at row e is norm[e]: the broadcast along the new unit axis keeps the row coordinate. -/
theorem r_nrm_1 (a1 : IVec S2x800000 32) : val_main_v34 (F := Ideal) a1 = Cert.Gcn.normCol a1 := by
  funext i
  rw [val_main_v34_apply, v26_eq_normOf]
  unfold Cert.Gcn.normCol
  exact congrArg (Cert.Gcn.normOf a1) (funext fun a => by match a with | ⟨0, _⟩ => rfl)
/-- The column of dinv^2 read at row r is dinv[r] * dinv[r]. -/
theorem r_d2_1 (a1 : IVec S2x800000 32) : val_main_v41 (F := Ideal) a1 = Cert.Gcn.dinv2Of a1 := by
  funext i
  have h : idx_main_v41 i = ix1 ⟨(i 0).val, (i 0).isLt⟩ := funext fun a => by match a with | ⟨0, _⟩ => rfl
  rw [val_main_v41_apply, val_main_v40_apply, v11_eq_dinvOf, h]
  unfold Cert.Gcn.dinv2Of
  rfl

/-! ## The second layer's copy -/

/-- deg^(-1/2): one plus the scatter-add of ones at the destinations, under rsqrt. -/
private theorem v56_eq_dinvOf (a1 : IVec S2x800000 32) : val_main_v56 (F := Ideal) a1 = Cert.Gcn.dinvOf a1 := by
  unfold val_main_v56 val_main_v55 val_main_v54 val_main_v53 val_main_v52 val_main_v51 val_main_v50 val_main_cst_8 val_main_cst_9 val_main_cst_10
  rw [v3_eq_dstOf]
  unfold Cert.Gcn.dinvOf
  rfl

/-- The source column as the gather of dinv reads it (a negative index counted from the end). -/
private theorem v62_eq_wrap (a1 : IVec S2x800000 32) : val_main_v62 (F := Ideal) a1 = Cert.Gcn.wrapIdx (Cert.Gcn.srcOf a1) := by
  unfold val_main_v62 val_main_v61 val_main_v58 val_main_v60 val_main_v57 val_main_v59 val_main_c_11 val_main_c_12
  rw [v1_eq_srcOf]
  unfold Cert.Gcn.wrapIdx
  rfl

/-- The destination column as the gather of dinv reads it. -/
private theorem v69_eq_wrap (a1 : IVec S2x800000 32) : val_main_v69 (F := Ideal) a1 = Cert.Gcn.wrapIdx (Cert.Gcn.dstOf a1) := by
  unfold val_main_v69 val_main_v68 val_main_v65 val_main_v67 val_main_v64 val_main_v66 val_main_c_13 val_main_c_14
  rw [v3_eq_dstOf]
  unfold Cert.Gcn.wrapIdx
  rfl

/-- norm[e] = dinv[src e] * dinv[dst e]: the same two gathers of the same operands, multiplied. -/
private theorem v71_eq_normOf (a1 : IVec S2x800000 32) : val_main_v71 (F := Ideal) a1 = Cert.Gcn.normOf a1 := by
  unfold val_main_v71 val_main_v63 val_main_v70
  rw [v56_eq_dinvOf, v62_eq_wrap, v69_eq_wrap]
  unfold Cert.Gcn.normOf
  rfl

theorem r_idx_2 (a1 : IVec S2x800000 32) : val_main_v77 (F := Ideal) a1 = Cert.Gcn.wrapIdx (Cert.Gcn.srcOf a1) := by
  unfold val_main_v77 val_main_v76 val_main_v73 val_main_v75 val_main_v72 val_main_v74 val_main_c_15 val_main_c_16
  rw [v1_eq_srcOf]
  unfold Cert.Gcn.wrapIdx
  rfl
theorem r_dstcol_2 (a1 : IVec S2x800000 32) : val_main_v83 (F := Ideal) a1
    = broadcastInDim Cert.KernelIdeal.S800000x1 ![0] Cert.KernelIdeal.Facts₀.bcast_S800000_S800000x1_0 (Cert.Gcn.dstOf a1) := by
  unfold val_main_v83
  rw [v3_eq_dstOf]
/-- The norm column read at row e is norm[e]: the broadcast along the new unit axis keeps the row coordinate. -/
theorem r_nrm_2 (a1 : IVec S2x800000 32) : val_main_v79 (F := Ideal) a1 = Cert.Gcn.normCol a1 := by
  funext i
  rw [val_main_v79_apply, v71_eq_normOf]
  unfold Cert.Gcn.normCol
  exact congrArg (Cert.Gcn.normOf a1) (funext fun a => by match a with | ⟨0, _⟩ => rfl)
/-- The column of dinv^2 read at row r is dinv[r] * dinv[r]. -/
theorem r_d2_2 (a1 : IVec S2x800000 32) : val_main_v86 (F := Ideal) a1 = Cert.Gcn.dinv2Of a1 := by
  funext i
  have h : idx_main_v86 i = ix1 ⟨(i 0).val, (i 0).isLt⟩ := funext fun a => by match a with | ⟨0, _⟩ => rfl
  rw [val_main_v86_apply, val_main_v85_apply, v56_eq_dinvOf, h]
  unfold Cert.Gcn.dinv2Of
  rfl

/-! ## The third layer's copy -/

/-- deg^(-1/2): one plus the scatter-add of ones at the destinations, under rsqrt. -/
private theorem v101_eq_dinvOf (a1 : IVec S2x800000 32) : val_main_v101 (F := Ideal) a1 = Cert.Gcn.dinvOf a1 := by
  unfold val_main_v101 val_main_v100 val_main_v99 val_main_v98 val_main_v97 val_main_v96 val_main_v95 val_main_cst_18 val_main_cst_19 val_main_cst_20
  rw [v3_eq_dstOf]
  unfold Cert.Gcn.dinvOf
  rfl

/-- The source column as the gather of dinv reads it (a negative index counted from the end). -/
private theorem v107_eq_wrap (a1 : IVec S2x800000 32) : val_main_v107 (F := Ideal) a1 = Cert.Gcn.wrapIdx (Cert.Gcn.srcOf a1) := by
  unfold val_main_v107 val_main_v106 val_main_v103 val_main_v105 val_main_v102 val_main_v104 val_main_c_21 val_main_c_22
  rw [v1_eq_srcOf]
  unfold Cert.Gcn.wrapIdx
  rfl

/-- The destination column as the gather of dinv reads it. -/
private theorem v114_eq_wrap (a1 : IVec S2x800000 32) : val_main_v114 (F := Ideal) a1 = Cert.Gcn.wrapIdx (Cert.Gcn.dstOf a1) := by
  unfold val_main_v114 val_main_v113 val_main_v110 val_main_v112 val_main_v109 val_main_v111 val_main_c_23 val_main_c_24
  rw [v3_eq_dstOf]
  unfold Cert.Gcn.wrapIdx
  rfl

/-- norm[e] = dinv[src e] * dinv[dst e]: the same two gathers of the same operands, multiplied. -/
private theorem v116_eq_normOf (a1 : IVec S2x800000 32) : val_main_v116 (F := Ideal) a1 = Cert.Gcn.normOf a1 := by
  unfold val_main_v116 val_main_v108 val_main_v115
  rw [v101_eq_dinvOf, v107_eq_wrap, v114_eq_wrap]
  unfold Cert.Gcn.normOf
  rfl

theorem r_idx_3 (a1 : IVec S2x800000 32) : val_main_v122 (F := Ideal) a1 = Cert.Gcn.wrapIdx (Cert.Gcn.srcOf a1) := by
  unfold val_main_v122 val_main_v121 val_main_v118 val_main_v120 val_main_v117 val_main_v119 val_main_c_25 val_main_c_26
  rw [v1_eq_srcOf]
  unfold Cert.Gcn.wrapIdx
  rfl
theorem r_dstcol_3 (a1 : IVec S2x800000 32) : val_main_v128 (F := Ideal) a1
    = broadcastInDim Cert.KernelIdeal.S800000x1 ![0] Cert.KernelIdeal.Facts₀.bcast_S800000_S800000x1_0 (Cert.Gcn.dstOf a1) := by
  unfold val_main_v128
  rw [v3_eq_dstOf]
/-- The norm column read at row e is norm[e]: the broadcast along the new unit axis keeps the row coordinate. -/
theorem r_nrm_3 (a1 : IVec S2x800000 32) : val_main_v124 (F := Ideal) a1 = Cert.Gcn.normCol a1 := by
  funext i
  rw [val_main_v124_apply, v116_eq_normOf]
  unfold Cert.Gcn.normCol
  exact congrArg (Cert.Gcn.normOf a1) (funext fun a => by match a with | ⟨0, _⟩ => rfl)
/-- The column of dinv^2 read at row r is dinv[r] * dinv[r]. -/
theorem r_d2_3 (a1 : IVec S2x800000 32) : val_main_v131 (F := Ideal) a1 = Cert.Gcn.dinv2Of a1 := by
  funext i
  have h : idx_main_v131 i = ix1 ⟨(i 0).val, (i 0).isLt⟩ := funext fun a => by match a with | ⟨0, _⟩ => rfl
  rw [val_main_v131_apply, val_main_v130_apply, v101_eq_dinvOf, h]
  unfold Cert.Gcn.dinv2Of
  rfl

/-! ## The bias rows: the broadcast along the new unit axis keeps the column coordinate -/

theorem r_bias_1 (a3 : FVec Ideal S256 .f32) : val_main_v45 (F := Ideal) a3 = Cert.Gcn.biasRow a3 := by
  funext i
  rw [val_main_v45_apply]
  unfold Cert.Gcn.biasRow
  exact congrArg a3 (funext fun a => by match a with | ⟨0, _⟩ => rfl)
theorem r_bias_2 (a5 : FVec Ideal S256 .f32) : val_main_v90 (F := Ideal) a5 = Cert.Gcn.biasRow a5 := by
  funext i
  rw [val_main_v90_apply]
  unfold Cert.Gcn.biasRow
  exact congrArg a5 (funext fun a => by match a with | ⟨0, _⟩ => rfl)
theorem r_bias_3 (a7 : FVec Ideal S64 .f32) : val_main_v135 (F := Ideal) a7 = Cert.Gcn.biasRow a7 := by
  funext i
  rw [val_main_v135_apply]
  unfold Cert.Gcn.biasRow
  exact congrArg a7 (funext fun a => by match a with | ⟨0, _⟩ => rfl)

end Cert.ReferenceIdeal.RefValue

end
-- ==== Proof.RLayer1.lean ====
import proofs.«404923_j6158983102957_2_alg».proof.Proof.RefRead
import proofs.«404923_j6158983102957_2_alg».proof.Proof.Spec
import proofs.«404923_j6158983102957_2_alg».proof.Proof.RGraph
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The first matrix product, entry by entry: entry (r, j) is the sum over k of x[r, k] * w[k, j]. -/
private theorem v4_eq_matProd (a0 : FVec Ideal S50000x512 .f32) (a2 : FVec Ideal S512x256 .f32) :
    val_main_v4 (F := Ideal) a0 a2 = Cert.Gcn.matProd a0 a2 := by
  funext i
  rw [val_main_v4_apply]
  unfold Cert.Gcn.matProd
  refine Finset.sum_congr rfl fun k _ => ?_
  have hl : lidx_main_v4 i k = ix2 ⟨(i 0).val, (i 0).isLt⟩ k :=
    funext fun a => by match a with | ⟨0, _⟩ => rfl | ⟨1, _⟩ => rfl
  have hr : ridx_main_v4 i k = ix2 k ⟨(i 1).val, (i 1).isLt⟩ :=
    funext fun a => by match a with | ⟨0, _⟩ => rfl | ⟨1, _⟩ => rfl
  rw [hl, hr]
  rfl

/-- The first aggregation: the same scatter-add into zeros, at the same destination column, of the same gathered
    rows scaled by the same norm column. -/
private theorem v39_eq_agg256 (a0 : FVec Ideal S50000x512 .f32) (a1 : IVec S2x800000 32) (a2 : FVec Ideal S512x256 .f32) :
    val_main_v39 (F := Ideal) a0 a1 a2 = Cert.Gcn.agg256 (Cert.Gcn.matProd a0 a2) a1 := by
  unfold val_main_v39 val_main_v36 val_main_v35 val_main_v33 val_main_v37 val_main_cst_7
  rw [r_dstcol_1, r_idx_1, r_nrm_1, v4_eq_matProd]
  unfold Cert.Gcn.agg256
  rfl

/-- The reference's first hidden array (after its first relu) is the specification's. -/
theorem hidden1_eq (a0 : FVec Ideal S50000x512 .f32) (a1 : IVec S2x800000 32) (a2 : FVec Ideal S512x256 .f32) (a3 : FVec Ideal S256 .f32) :
    val_main_v48 (F := Ideal) a0 a1 a2 a3 = Cert.Gcn.hidden1 a0 a1 a2 a3 := by
  funext i
  -- the column of dinv^2 is read at (row, 0), the bias row at (0, column)
  have h42 : idx_main_v42 i = ix2 ⟨(i 0).val, (i 0).isLt⟩ 0 :=
    funext fun a => by match a with | ⟨0, _⟩ => rfl | ⟨1, _⟩ => rfl
  have h46 : idx_main_v46 i = ix2 0 ⟨(i 1).val, (i 1).isLt⟩ :=
    funext fun a => by match a with | ⟨0, _⟩ => rfl | ⟨1, _⟩ => rfl
  rw [val_main_v48_apply, val_main_v47_apply, val_main_v44_apply, val_main_v43_apply, val_main_v42_apply,
    val_main_v46_apply, val_main_call0_v0_apply, val_main_call0_cst_apply, v39_eq_agg256, v4_eq_matProd, r_d2_1, r_bias_1,
    h42, h46]
  -- max (agg + h * d2 + b) 0 on both sides
  unfold Cert.Gcn.hidden1 Cert.Gcn.relu Cert.Gcn.layerSum
  rfl

end Cert.ReferenceIdeal.RefValue

end
-- ==== Proof.RLayer2.lean ====
import proofs.«404923_j6158983102957_2_alg».proof.Proof.RefRead
import proofs.«404923_j6158983102957_2_alg».proof.Proof.Spec
import proofs.«404923_j6158983102957_2_alg».proof.Proof.RGraph
import proofs.«404923_j6158983102957_2_alg».proof.Proof.RLayer1
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The second matrix product, entry by entry, its left factor the first hidden array. -/
private theorem v49_eq_matProd (a0 : FVec Ideal S50000x512 .f32) (a1 : IVec S2x800000 32) (a2 : FVec Ideal S512x256 .f32) (a3 : FVec Ideal S256 .f32) (a4 : FVec Ideal S256x256 .f32) :
    val_main_v49 (F := Ideal) a0 a1 a2 a3 a4 = Cert.Gcn.matProd (Cert.Gcn.hidden1 a0 a1 a2 a3) a4 := by
  funext i
  rw [val_main_v49_apply, hidden1_eq]
  unfold Cert.Gcn.matProd
  refine Finset.sum_congr rfl fun k _ => ?_
  have hl : lidx_main_v49 i k = ix2 ⟨(i 0).val, (i 0).isLt⟩ k :=
    funext fun a => by match a with | ⟨0, _⟩ => rfl | ⟨1, _⟩ => rfl
  have hr : ridx_main_v49 i k = ix2 k ⟨(i 1).val, (i 1).isLt⟩ :=
    funext fun a => by match a with | ⟨0, _⟩ => rfl | ⟨1, _⟩ => rfl
  rw [hl, hr]
  rfl

/-- The second aggregation: the same scatter-add into zeros, at the same destination column, of the same gathered
    rows scaled by the same norm column. -/
private theorem v84_eq_agg256 (a0 : FVec Ideal S50000x512 .f32) (a1 : IVec S2x800000 32) (a2 : FVec Ideal S512x256 .f32) (a3 : FVec Ideal S256 .f32) (a4 : FVec Ideal S256x256 .f32) :
    val_main_v84 (F := Ideal) a0 a1 a2 a3 a4 = Cert.Gcn.agg256 (Cert.Gcn.matProd (Cert.Gcn.hidden1 a0 a1 a2 a3) a4) a1 := by
  unfold val_main_v84 val_main_v81 val_main_v80 val_main_v78 val_main_v82 val_main_cst_17
  rw [r_dstcol_2, r_idx_2, r_nrm_2, v49_eq_matProd]
  unfold Cert.Gcn.agg256
  rfl

/-- The reference's second hidden array (after its second relu) is the specification's. -/
theorem hidden2_eq (a0 : FVec Ideal S50000x512 .f32) (a1 : IVec S2x800000 32) (a2 : FVec Ideal S512x256 .f32) (a3 : FVec Ideal S256 .f32) (a4 : FVec Ideal S256x256 .f32) (a5 : FVec Ideal S256 .f32) :
    val_main_v93 (F := Ideal) a0 a1 a2 a3 a4 a5 = Cert.Gcn.hidden2 a0 a1 a2 a3 a4 a5 := by
  funext i
  -- the column of dinv^2 is read at (row, 0), the bias row at (0, column)
  have h87 : idx_main_v87 i = ix2 ⟨(i 0).val, (i 0).isLt⟩ 0 :=
    funext fun a => by match a with | ⟨0, _⟩ => rfl | ⟨1, _⟩ => rfl
  have h91 : idx_main_v91 i = ix2 0 ⟨(i 1).val, (i 1).isLt⟩ :=
    funext fun a => by match a with | ⟨0, _⟩ => rfl | ⟨1, _⟩ => rfl
  rw [val_main_v93_apply, val_main_v92_apply, val_main_v89_apply, val_main_v88_apply, val_main_v87_apply,
    val_main_v91_apply, val_main_call1_v0_apply, val_main_call1_cst_apply, v84_eq_agg256, v49_eq_matProd, r_d2_2, r_bias_2,
    h87, h91]
  -- max (agg + h * d2 + b) 0 on both sides
  unfold Cert.Gcn.hidden2 Cert.Gcn.relu Cert.Gcn.layerSum
  rfl

end Cert.ReferenceIdeal.RefValue

end
-- ==== Proof.RLayer3.lean ====
import proofs.«404923_j6158983102957_2_alg».proof.Proof.RefRead
import proofs.«404923_j6158983102957_2_alg».proof.Proof.Spec
import proofs.«404923_j6158983102957_2_alg».proof.Proof.RGraph
import proofs.«404923_j6158983102957_2_alg».proof.Proof.RLayer2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Reduce
import Idealize.ShloMosaic.PureOps.Ideal.Laws
import Mathlib.Data.Finset.Fold

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## A row of a 50000 × 64 array under the host's two row reductions -/

/-- The reduced index p with the column k put back is (p, k). -/
private theorem lift_row (h : S50000x64.Reduces [1] S50000) (p : Fin 50000) (k : Fin (S50000x64.size 1)) :
    h.lift (ix1 p) k = ix2 p (⟨k.val, k.isLt⟩ : Fin 64) := by
  funext c; apply Fin.ext
  match c with
  | ⟨0, _⟩ => rfl
  | ⟨1, _⟩ => rfl

/-- The host's reduce with a maximum body along the columns, from the word of minus infinity, is at row p the fold of
    max over that row: the maximum is commutative and associative, so the order of the fold is immaterial. -/
private theorem hostRowMax (x : FVec Ideal S50000x64 .f32) (p : Fin 50000) :
    Host.reduce FloatOps.maximumf x (constant (F := Ideal) S_ .f32 0xFF800000#32) reducesTo_S50000x64_S50000_d1 h_S_ (ix1 p)
      = Cert.Gcn.rowMax (n := 50000) (D := 64) x p := by
  have h : S50000x64.Reduces [1] S50000 := by decide
  rw [Host.reduce_eq_fold_single FloatOps.maximumf x _ reducesTo_S50000x64_S50000_d1 h h_S_]
  have hf : (x ∘ h.lift (ix1 p)) = fun q : Fin 64 => x (ix2 p q) := funext fun k => congrArg x (lift_row h p k)
  unfold Cert.Gcn.rowMax
  exact congrArg (fun f => Finset.fold max (Ideal.ofBits .f32 0xFF800000#32) f (Finset.univ : Finset (Fin 64))) hf

/-- A fold of max from a word is at least that word, so taking the maximum with the word again changes nothing. -/
private theorem max_init_rowMax (x : Cert.Gcn.Mat 50000 64) (p : Fin 50000) :
    max (Ideal.ofBits .f32 0xFF800000#32) (Cert.Gcn.rowMax x p) = Cert.Gcn.rowMax x p :=
  max_eq_right (by unfold Cert.Gcn.rowMax; exact (Finset.le_fold_max _).2 (Or.inl le_rfl))

section Layer3

variable (a0 : FVec Ideal S50000x512 .f32) (a1 : IVec S2x800000 32) (a2 : FVec Ideal S512x256 .f32) (a3 : FVec Ideal S256 .f32)
  (a4 : FVec Ideal S256x256 .f32) (a5 : FVec Ideal S256 .f32) (a6 : FVec Ideal S256x64 .f32) (a7 : FVec Ideal S64 .f32)

/-! ## The third layer's sum -/

/-- The dense product of the second hidden array with the third weight matrix, entry by entry. -/
private theorem v94_eq : val_main_v94 (F := Ideal) a0 a1 a2 a3 a4 a5 a6 = (Cert.Gcn.matProd (Cert.Gcn.hidden2 a0 a1 a2 a3 a4 a5) a6) := by
  funext i
  rw [val_main_v94_apply, hidden2_eq]
  unfold Cert.Gcn.matProd
  refine Finset.sum_congr rfl fun k _ => ?_
  have el : lidx_main_v94 i k = ix2 (n0 := 50000) (n1 := 256) ⟨(i 0).val, (i 0).isLt⟩ k :=
    funext fun a => Fin.ext (by match a with | ⟨0, _⟩ => rfl | ⟨1, _⟩ => rfl)
  have er : ridx_main_v94 i k = ix2 (n0 := 256) (n1 := 64) k ⟨(i 1).val, (i 1).isLt⟩ :=
    funext fun a => Fin.ext (by match a with | ⟨0, _⟩ => rfl | ⟨1, _⟩ => rfl)
  rw [el, er]

/-- The aggregation: the same gather, scaling by the edge norms and scatter-add, applied to equal operands. -/
private theorem v129_eq : val_main_v129 (F := Ideal) a0 a1 a2 a3 a4 a5 a6 = Cert.Gcn.agg64 (Cert.Gcn.matProd (Cert.Gcn.hidden2 a0 a1 a2 a3 a4 a5) a6) a1 := by
  unfold val_main_v129 val_main_v126 val_main_v123 val_main_v125 val_main_v127 val_main_cst_27
  rw [v94_eq, r_idx_3, r_dstcol_3, r_nrm_3]
  rfl

/-- The layer's sum: aggregation plus the product scaled by dinv squared plus the bias, entry by entry. -/
private theorem v137_eq : val_main_v137 (F := Ideal) a0 a1 a2 a3 a4 a5 a6 a7
    = Cert.Gcn.layerSum (Cert.Gcn.agg64 (Cert.Gcn.matProd (Cert.Gcn.hidden2 a0 a1 a2 a3 a4 a5) a6) a1) (Cert.Gcn.matProd (Cert.Gcn.hidden2 a0 a1 a2 a3 a4 a5) a6) (Cert.Gcn.dinv2Of a1) (Cert.Gcn.biasRow a7) := by
  funext i
  have e1 : idx_main_v132 i = ix2 (n0 := 50000) (n1 := 1) ⟨(i 0).val, (i 0).isLt⟩ 0 :=
    funext fun a => Fin.ext (by match a with | ⟨0, _⟩ => rfl | ⟨1, _⟩ => rfl)
  have e2 : idx_main_v136 i = ix2 (n0 := 1) (n1 := 64) 0 ⟨(i 1).val, (i 1).isLt⟩ :=
    funext fun a => Fin.ext (by match a with | ⟨0, _⟩ => rfl | ⟨1, _⟩ => rfl)
  rw [val_main_v137_apply, val_main_v134_apply, val_main_v133_apply, val_main_v132_apply, val_main_v136_apply,
    v129_eq, v94_eq, r_d2_3, r_bias_3, e1, e2]
  rfl

/-! ## The row softmax -/

/-- The row maximum the softmax subtracts: max of the word of minus infinity with the host's max-reduce of the row. -/
private theorem v140_row (p : Fin 50000) :
    val_main_v140 (F := Ideal) a0 a1 a2 a3 a4 a5 a6 a7 (ix1 p) = Cert.Gcn.rowMax (n := 50000) (D := 64) (val_main_v137 (F := Ideal) a0 a1 a2 a3 a4 a5 a6 a7) p := by
  rw [val_main_v140_apply, val_main_v139_apply, val_main_cst_29_apply]
  unfold val_main_v138 val_main_cst_28
  rw [hostRowMax]
  exact max_init_rowMax _ p

/-- exp of the entry minus its row's maximum. -/
private theorem v144_eq : val_main_v144 (F := Ideal) a0 a1 a2 a3 a4 a5 a6 a7 = Cert.Gcn.expShift (n := 50000) (D := 64) (val_main_v137 (F := Ideal) a0 a1 a2 a3 a4 a5 a6 a7) := by
  funext i
  have e : idx_main_v141 (idx_main_v142 i) = ix1 (⟨(i 0).val, (i 0).isLt⟩ : Fin 50000) :=
    funext fun a => Fin.ext (by match a with | ⟨0, _⟩ => rfl)
  rw [val_main_v144_apply, val_main_v143_apply, val_main_v142_apply, val_main_v141_apply, e, v140_row,
    Ideal.hostUnary_exp_def, Ideal.subf_def]
  unfold Cert.Gcn.expShift
  rfl

/-- The row sum of those exponentials: the host's add-reduce from the zero word is zero plus the sum over the row. -/
private theorem v145_row (p : Fin 50000) :
    val_main_v145 (F := Ideal) a0 a1 a2 a3 a4 a5 a6 a7 (ix1 p)
      = Cert.Gcn.rowSum (n := 50000) (D := 64) (Cert.Gcn.expShift (val_main_v137 (F := Ideal) a0 a1 a2 a3 a4 a5 a6 a7)) p := by
  rw [val_main_v145_apply, val_main_cst_30_apply, v144_eq, Ideal.ofBits_def, Ideal.ofBits_zero_f32, zero_add]
  unfold Cert.Gcn.rowSum
  refine Finset.sum_congr rfl fun k _ => congrArg _ ?_
  exact funext fun a => Fin.ext (by match a with | ⟨0, _⟩ => rfl | ⟨1, _⟩ => rfl)

/-- The softmax: each exponential over its row's sum. -/
private theorem v148_eq : val_main_v148 (F := Ideal) a0 a1 a2 a3 a4 a5 a6 a7 = Cert.Gcn.softmax (n := 50000) (D := 64) (val_main_v137 (F := Ideal) a0 a1 a2 a3 a4 a5 a6 a7) := by
  funext i
  have e : idx_main_v146 (idx_main_v147 i) = ix1 (⟨(i 0).val, (i 0).isLt⟩ : Fin 50000) :=
    funext fun a => Fin.ext (by match a with | ⟨0, _⟩ => rfl)
  rw [val_main_v148_apply, val_main_v147_apply, val_main_v146_apply, e, v145_row, v144_eq]
  rfl

/-! ## The row log-softmax of the softmax -/

/-- The row maximum the log-softmax subtracts. -/
private theorem c2v2_row (p : Fin 50000) :
    val_main_call2_v2 (F := Ideal) a0 a1 a2 a3 a4 a5 a6 a7 (ix1 p) = Cert.Gcn.rowMax (n := 50000) (D := 64) (val_main_v148 (F := Ideal) a0 a1 a2 a3 a4 a5 a6 a7) p := by
  rw [val_main_call2_v2_apply, val_main_call2_v1_apply, val_main_call2_cst_0_apply]
  unfold val_main_call2_v0 val_main_call2_cst
  rw [hostRowMax]
  exact max_init_rowMax _ p

/-- The entry minus its row's maximum. -/
private theorem c2v5_apply' (i : S50000x64.Idx) :
    val_main_call2_v5 (F := Ideal) a0 a1 a2 a3 a4 a5 a6 a7 i
      = (val_main_v148 (F := Ideal) a0 a1 a2 a3 a4 a5 a6 a7) i - Cert.Gcn.rowMax (n := 50000) (D := 64) (val_main_v148 (F := Ideal) a0 a1 a2 a3 a4 a5 a6 a7) ⟨(i 0).val, (i 0).isLt⟩ := by
  have e : idx_main_call2_v3 (idx_main_call2_v4 i) = ix1 (⟨(i 0).val, (i 0).isLt⟩ : Fin 50000) :=
    funext fun a => Fin.ext (by match a with | ⟨0, _⟩ => rfl)
  rw [val_main_call2_v5_apply, val_main_call2_v4_apply, val_main_call2_v3_apply, e, c2v2_row]
  rfl

/-- exp of that difference. -/
private theorem c2v6_eq : val_main_call2_v6 (F := Ideal) a0 a1 a2 a3 a4 a5 a6 a7 = Cert.Gcn.expShift (n := 50000) (D := 64) (val_main_v148 (F := Ideal) a0 a1 a2 a3 a4 a5 a6 a7) := by
  funext i
  rw [val_main_call2_v6_apply, c2v5_apply', Ideal.hostUnary_exp_def]
  unfold Cert.Gcn.expShift
  rfl

/-- The row sum of those exponentials. -/
private theorem c2v7_row (p : Fin 50000) :
    val_main_call2_v7 (F := Ideal) a0 a1 a2 a3 a4 a5 a6 a7 (ix1 p)
      = Cert.Gcn.rowSum (n := 50000) (D := 64) (Cert.Gcn.expShift (val_main_v148 (F := Ideal) a0 a1 a2 a3 a4 a5 a6 a7)) p := by
  rw [val_main_call2_v7_apply, val_main_call2_cst_1_apply, c2v6_eq, Ideal.ofBits_def, Ideal.ofBits_zero_f32, zero_add]
  unfold Cert.Gcn.rowSum
  refine Finset.sum_congr rfl fun k _ => congrArg _ ?_
  exact funext fun a => Fin.ext (by match a with | ⟨0, _⟩ => rfl | ⟨1, _⟩ => rfl)

/-- The log-softmax: the shifted entry minus the log of its row's sum of exponentials. -/
private theorem v149_eq : val_main_v149 (F := Ideal) a0 a1 a2 a3 a4 a5 a6 a7 = Cert.Gcn.logSoftmax (n := 50000) (D := 64) (val_main_v148 (F := Ideal) a0 a1 a2 a3 a4 a5 a6 a7) := by
  funext i
  have e : idx_main_call2_v8 (idx_main_call2_v10 i) = ix1 (⟨(i 0).val, (i 0).isLt⟩ : Fin 50000) :=
    funext fun a => Fin.ext (by match a with | ⟨0, _⟩ => rfl)
  rw [val_main_v149_apply, val_main_call2_v10_apply, val_main_call2_v9_apply, val_main_call2_v8_apply, e, c2v7_row,
    c2v5_apply', Ideal.hostUnary_log_def, Ideal.subf_def]
  unfold Cert.Gcn.logSoftmax
  rfl

end Layer3

/-- The reference's result is the specification's. -/
theorem result_eq (a0 : FVec Ideal S50000x512 .f32) (a1 : IVec S2x800000 32) (a2 : FVec Ideal S512x256 .f32) (a3 : FVec Ideal S256 .f32) (a4 : FVec Ideal S256x256 .f32) (a5 : FVec Ideal S256 .f32) (a6 : FVec Ideal S256x64 .f32) (a7 : FVec Ideal S64 .f32) :
    val_main_v149 (F := Ideal) a0 a1 a2 a3 a4 a5 a6 a7 = Cert.Gcn.result a0 a1 a2 a3 a4 a5 a6 a7 := by
  rw [v149_eq, v148_eq, v137_eq]
  rfl

end Cert.ReferenceIdeal.RefValue

end
-- ==== Proof.lean ====
/-
  The certificate of a three-layer graph convolution: dense products and fused combine / softmax regions on the
  TensorCore, the neighbour aggregation (a row gather scaled by the edge norm, scatter-added at the destinations) on
  the host, against the plain jnp reference.

  Over the extended reals both programs compute one function of the eight arguments (Proof/Spec.lean): each layer is
  agg + h * dinv^2 + b with h the product of the layer's input and weights and agg the scatter-add of the gathered,
  norm-scaled rows of h; max(., 0) after layers one and two; a row softmax followed by a row log-softmax after layer
  three. The kernel computes every dense part block by block (5000 rows at a grid point) where the reference computes
  it on whole arrays: the same sums, maxima and quotients row by row. The one place the two differ is the row gather:
  the kernel's fills a row with the NaN word where the (wrapped) source index is outside 0 … 49999, the reference's
  clamps; under the precondition's last conjunct, 0 ≤ src < 50000, the fill never happens.

  Frames: the two kernel programs' are the generated ones; the reference's is its run with the result dropped.
-/
import proofs.«404923_j6158983102957_2_alg».proof.Defs
import proofs.«404923_j6158983102957_2_alg».proof.Proof.Gen.Kernel
import proofs.«404923_j6158983102957_2_alg».proof.Proof.Gen.Kernel.Frame
import proofs.«404923_j6158983102957_2_alg».proof.Proof.Gen.KernelIdeal
import proofs.«404923_j6158983102957_2_alg».proof.Proof.Gen.KernelIdeal.Frame
import proofs.«404923_j6158983102957_2_alg».proof.Proof.Gen.ReferenceIdeal
import proofs.«404923_j6158983102957_2_alg».proof.Proof.Gen.Pre_finite_inputs
import proofs.«404923_j6158983102957_2_alg».proof.Proof.Spec
import proofs.«404923_j6158983102957_2_alg».proof.Proof.PreDecode
import proofs.«404923_j6158983102957_2_alg».proof.Proof.KRun
import proofs.«404923_j6158983102957_2_alg».proof.Proof.KLayer3
import proofs.«404923_j6158983102957_2_alg».proof.Proof.RRun
import proofs.«404923_j6158983102957_2_alg».proof.Proof.RLayer3
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run_val (F := Ideal) m ρ)

/-- The ideal pass rewrote nothing: the idealization is the program's own text read over the extended reals. -/
theorem preserves : Cert.preserves_Kernel_KernelIdeal := trivial

/-- Both programs end at the three-layer function of the arguments: the kernel's last region leaves it (the chain of
    boundary contents, where the source indices' range keeps the filling gather a plain gather), and the reference's
    last stage is it. -/
theorem algebraic : Cert.algebraic_KernelIdeal_ReferenceIdeal := by
  intro m ρ m' ρ' hpre hagree
  refine ⟨fun c => Cert.Gcn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ChainValue.v59_W15 m ρ c (Cert.Gcn.srcOk_of_pre m hpre c)), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.RefValue.run_val (F := Ideal) m' ρ')
    rw [Cert.ReferenceIdeal.RefValue.result_eq]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
